-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x64x512 : Shape := ⟨3, ![4096, 64, 512]⟩
abbrev S4096 : Shape := ⟨1, ![4096]⟩
abbrev S2048x512 : Shape := ⟨2, ![2048, 512]⟩
abbrev S2048 : Shape := ⟨1, ![2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x64x512 : S_.BroadcastsInDim S4096x64x512 (![] : Fin 0 → Fin S4096x64x512.rank)
  reducesTo_S4096x64x512_S_d0_1_2 : S4096x64x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg3 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg3 main_v34
  let main_c_13 : IVec S_ 32 := constantI S_ 32 64#32
  let main_v36 : IVec S4096 32 := broadcastInDim S4096 ![] bcast_S_S4096 main_c_13
  let main_v37 : IVec S4096 1 := cmpi .slt main_arg3 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg3 : IVec S4096 32) (main_arg5 : FVec F S2048x512 .f32) (main_arg6 : FVec F S2048 .f32) (main_arg7 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg3 main_v33

def fn {F : FTy → Type} [FloatOps F] (main_arg0 : FVec F S4096x512 .f32) (main_arg1 : FVec F S4096x64x512 .f32) (main_arg2 : FVec F S4096x64x512 .f32) (main_arg3 : IVec S4096 32) (main_arg4 : FVec F S2048x512 .f32) (main_arg5 : FVec F S2048x512 .f32) (main_arg6 : FVec F S2048 .f32) (main_arg7 : FVec F S2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x64x512 .f32 := Host.absf main_arg1
  let main_cst_0 : FVec F S_ .f32 := constant S_ .f32 0x7F800000#32
  let main_v5 : FVec F S4096x64x512 .f32 := broadcastInDim S4096x64x512 ![] bcast_S_S4096x64x512 main_cst_0
  let main_v6 : IVec S4096x64x512 1 := cmpf .olt main_v4 main_v5
  let main_c_1 : IVec S_ 1 := constantI S_ 1 1#1
  let main_v7 : IVec S_ 1 := (fun x v => Host.reduce IntOp.andi x v reducesTo_S4096x64x512_S_d0_1_2 h_S_) main_v6 main_c_1
  let main_v8 : IVec S_ 1 := andi main_v3 main_v7
  let main_v9 : FVec F S4096x64x512 .f32 := Host.absf main_arg2
  let main_cst_2 : FVec F S_ .f32 := constant S_ .f32 0x7F800000#32
  let main_v10 : FVec F S4096x64x512 .f32 := broadcastInDim S4096x64x512 ![] bcast_S_S4096x64x512 main_cst_2
  let main_v11 : IVec S4096x64x512 1 := cmpf .olt main_v9 main_v10
  let main_c_3 : IVec S_ 1 := constantI S_ 1 1#1
  let main_v12 : IVec S_ 1 := (fun x v => Host.reduce IntOp.andi x v reducesTo_S4096x64x512_S_d0_1_2 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg3 main_arg5 main_arg6 main_arg7 main_v13 main_v16
-- ==== Kernel.lean ====
abbrev S4096x512 : Shape := ⟨2, ![4096, 512]⟩
abbrev S4096x64x512 : Shape := ⟨3, ![4096, 64, 512]⟩
abbrev S4096 : Shape := ⟨1, ![4096]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S4096x1 : Shape := ⟨2, ![4096, 1]⟩
abbrev S16x512 : Shape := ⟨2, ![16, 512]⟩
abbrev S16x64x512 : Shape := ⟨3, ![16, 64, 512]⟩
abbrev S16x1 : Shape := ⟨2, ![16, 1]⟩
abbrev S16x64 : Shape := ⟨2, ![16, 64]⟩
abbrev S16x64x1 : Shape := ⟨3, ![16, 64, 1]⟩
abbrev S16x2048 : Shape := ⟨2, ![16, 2048]⟩
abbrev S16x1x512 : Shape := ⟨3, ![16, 1, 512]⟩

abbrev nBuf : Space → Nat
  | .hbm => 20
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x64x512, .f32⟩
  | .hbm, ⟨2, _⟩ => ⟨S4096x64x512, .f32⟩
  | .hbm, ⟨3, _⟩ => ⟨S4096, .i32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S512x2048, .f32⟩
  | .hbm, ⟨9, _⟩ => ⟨S512x2048, .bf16⟩
  | .hbm, ⟨10, _⟩ => ⟨S512x2048, .f32⟩
  | .hbm, ⟨11, _⟩ => ⟨S512x2048, .bf16⟩
  | .hbm, ⟨12, _⟩ => ⟨S1x2048, .f32⟩
  | .hbm, ⟨13, _⟩ => ⟨S1x2048, .f32⟩
  | .hbm, ⟨14, _⟩ => ⟨S4096x1, .i32⟩
  | .hbm, ⟨15, _⟩ => ⟨S4096x512, .bf16⟩
  | .hbm, ⟨16, _⟩ => ⟨S4096x512, .f32⟩
  | .hbm, ⟨17, _⟩ => ⟨S4096x512, .f32⟩
  | .hbm, ⟨18, _⟩ => ⟨S4096x64x512, .f32⟩
  | .hbm, ⟨19, _⟩ => ⟨S4096x64x512, .f32⟩
  | .local _ .vmem, ⟨0, _⟩ => ⟨S16x512, .bf16⟩
  | .local _ .vmem, ⟨1, _⟩ => ⟨S16x512, .bf16⟩
  | .local _ .vmem, ⟨2, _⟩ => ⟨S16x64x512, .f32⟩
  | .local _ .vmem, ⟨3, _⟩ => ⟨S16x64x512, .f32⟩
  | .local _ .vmem, ⟨4, _⟩ => ⟨S16x64x512, .f32⟩
  | .local _ .vmem, ⟨5, _⟩ => ⟨S16x64x512, .f32⟩
  | .local _ .vmem, ⟨6, _⟩ => ⟨S16x1, .i32⟩
  | .local _ .vmem, ⟨7, _⟩ => ⟨S16x1, .i32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x64x512, .f32⟩
  | .local _ .vmem, ⟨17, _⟩ => ⟨S16x64x512, .f32⟩
  | .local _ .vmem, ⟨18, _⟩ => ⟨S16x64x512, .f32⟩
  | .local _ .vmem, ⟨19, _⟩ => ⟨S16x64x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S2048x512_S512x2048_1_0 : S2048x512.Transposes [1, 0] S512x2048
  bitsLt_bf16_f32 : FTy.bits .bf16 < FTy.bits .f32
  shapeCasts_S2048_S1x2048 : S2048.ShapeCasts S1x2048
  shapeCasts_S4096_S4096x1 : S4096.ShapeCasts S4096x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  iota_S16x64_d1_w32 : S16x64.Iotas .tc 32 [1]
  broadcasts_S16x1_S16x64 : S16x1.Broadcasts S16x64
  natLt_1_32 : 1 < 32
  shapeCasts_S16x64_S16x64x1 : S16x64.ShapeCasts S16x64x1
  inb_S16x64x512_S16x64x512_0_0_0 : ∀ a, (![0, 0, 0] : Fin 3 → Nat) a + S16x64x512.size a ≤ S16x64x512.size a
  h_S16x64x512 : 0 < S16x64x512.numel
  broadcasts_S16x64x1_S16x64x512 : S16x64x1.Broadcasts S16x64x512
  reduces_S16x64x512_S16x512 : S16x64x512.Reduces [1] S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S16x2048 : S1x2048.Broadcasts S16x2048
  slices_S16x2048_o0_0_S16x512 : S16x2048.Slices ![0, 0] S16x512
  slices_S16x2048_o0_512_S16x512 : S16x2048.Slices ![0, 512] S16x512
  slices_S16x2048_o0_1024_S16x512 : S16x2048.Slices ![0, 1024] S16x512
  slices_S16x2048_o0_1536_S16x512 : S16x2048.Slices ![0, 1536] S16x512
  shapeCasts_S16x512_S16x1x512 : S16x512.ShapeCasts S16x1x512
  broadcasts_S16x1x512_S16x64x512 : S16x1x512.Broadcasts S16x64x512
  dot_S16x512_S512x2048_S16x2048_1_0_0_1_n_n_wf : DotDims.WF S16x512 S512x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S4096x512.size a
  hwx0_0 : ∀ i : grid0.Coords, EltTy.bits .bf16 = 32 ∨ (Rect.block (s := S4096x512) S16x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x512.size a ≤ S4096x64x512.size a
  hwx0_1 : ∀ i : grid0.Coords, EltTy.bits .f32 = 32 ∨ (Rect.block (s := S4096x64x512) S16x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x512.size a ≤ S4096x64x512.size a
  hwx0_2 : ∀ i : grid0.Coords, EltTy.bits .f32 = 32 ∨ (Rect.block (s := S4096x64x512) S16x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S4096x1.size a
  hwx0_3 : ∀ i : grid0.Coords, EltTy.bits .i32 = 32 ∨ (Rect.block (s := S4096x1) S16x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S4096x512.size a
  hwx0_8 : ∀ i : grid0.Coords, EltTy.bits .f32 = 32 ∨ (Rect.block (s := S4096x512) S16x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x512.size a ≤ S4096x512.size a
  hwx0_9 : ∀ i : grid0.Coords, EltTy.bits .f32 = 32 ∨ (Rect.block (s := S4096x512) S16x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x64x512.size a ≤ S4096x64x512.size a
  hwx0_10 : ∀ i : grid0.Coords, EltTy.bits .f32 = 32 ∨ (Rect.block (s := S4096x64x512) S16x64x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x64x512.size a ≤ S4096x64x512.size a
  hwx0_11 : ∀ i : grid0.Coords, EltTy.bits .f32 = 32 ∨ (Rect.block (s := S4096x64x512) S16x64x512.size (cc0_transform_11 i) (hinb0_11 i)).WholeWords (EltTy.packing .f32)

variable [Facts₀]

def dot_S16x512_S512x2048_S16x2048_1_0_0_1_n_n : DotDims S16x512 S512x2048 S16x2048 where
  lhsContracting := [1]
  rhsContracting := [0]
  lhsNonContracting := [0]
  rhsNonContracting := [1]
  lhsBatch := []
  rhsBatch := []
  wf := dot_S16x512_S512x2048_S16x2048_1_0_0_1_n_n_wf

abbrev win0_0 : Pipeline.Window sig grid0 :=
  Pipeline.Window.ofSpec (Memref.whole main_v7) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S16x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S16x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_2) S16x64x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_3) S16x64x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where
  halias0_10 : Pipeline.Aliased win0 1 10
  halias0_11 : Pipeline.Aliased win0 2 11

variable [Facts]
-- ==== ReferenceIdeal.lean ====
abbrev S4096x512 : Shape := ⟨2, ![4096, 512]⟩
abbrev S4096x64x512 : Shape := ⟨3, ![4096, 64, 512]⟩
abbrev S4096 : Shape := ⟨1, ![4096]⟩
abbrev S2048x512 : Shape := ⟨2, ![2048, 512]⟩
abbrev S2048 : Shape := ⟨1, ![2048]⟩
abbrev S_ : Shape := ⟨0, ![]⟩
abbrev S4096x1 : Shape := ⟨2, ![4096, 1]⟩
abbrev S4096x2 : Shape := ⟨2, ![4096, 2]⟩
abbrev S512x2048 : Shape := ⟨2, ![512, 2048]⟩
abbrev S4096x2048 : Shape := ⟨2, ![4096, 2048]⟩
abbrev S1x2048 : Shape := ⟨2, ![1, 2048]⟩

abbrev nBuf : Space → Nat
  | .hbm => 132
  | .vmem => 0
  | .smem => 0
  | _ => 0

abbrev hbmTy0_0 (i : Nat) : BufTy := match i % 128 with
  | 0 => ⟨S4096x512, .f32⟩
  | 1 => ⟨S4096x64x512, .f32⟩
  | 2 => ⟨S4096x64x512, .f32⟩
  | 3 => ⟨S4096, .i32⟩
  | 4 => ⟨S2048x512, .f32⟩
  | 5 => ⟨S2048x512, .f32⟩
  | 6 => ⟨S2048, .f32⟩
  | 7 => ⟨S2048, .f32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x1, .i32⟩
  | 25 => ⟨S4096x2, .i32⟩
  | 26 => ⟨S4096x512, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096x1, .i32⟩
  | 43 => ⟨S4096x2, .i32⟩
  | 44 => ⟨S4096x512, .f32⟩
  | 45 => ⟨S512x2048, .f32⟩
  | 46 => ⟨S4096x2048, .f32⟩
  | 47 => ⟨S1x2048, .f32⟩
  | 48 => ⟨S4096x2048, .f32⟩
  | 49 => ⟨S4096x2048, .f32⟩
  | 50 => ⟨S512x2048, .f32⟩
  | 51 => ⟨S4096x2048, .f32⟩
  | 52 => ⟨S4096x2048, .f32⟩
  | 53 => ⟨S1x2048, .f32⟩
  | 54 => ⟨S4096x2048, .f32⟩
  | 55 => ⟨S4096x2048, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096x1, .i32⟩
  | 109 => ⟨S4096x2, .i32⟩
  | 110 => ⟨S4096x64x512, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x512, .f32⟩

abbrev hbmTy0_1 (i : Nat) : BufTy := match i % 128 with
  | 0 => ⟨S4096x1, .i32⟩
  | 1 => ⟨S4096x1, .i32⟩
  | 2 => ⟨S4096x2, .i32⟩
  | 3 => ⟨S4096x64x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_17 : Ref sig .tc := ⟨.hbm, 111, rfl⟩
abbrev main_v84 : Ref sig .tc := ⟨.hbm, 112, rfl⟩
abbrev main_v85 : Ref sig .tc := ⟨.hbm, 113, rfl⟩
abbrev main_c_18 : Ref sig .tc := ⟨.hbm, 114, rfl⟩
abbrev main_v86 : Ref sig .tc := ⟨.hbm, 115, rfl⟩
abbrev main_v87 : Ref sig .tc := ⟨.hbm, 116, rfl⟩
abbrev main_c_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_20 : Ref sig .tc := ⟨.hbm, 121, rfl⟩
abbrev main_v91 : Ref sig .tc := ⟨.hbm, 122, rfl⟩
abbrev main_v92 : Ref sig .tc := ⟨.hbm, 123, rfl⟩
abbrev main_c_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  transposes_S2048x512_S512x2048_1_0 : S2048x512.Transposes [1, 0] S512x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S4096x2048_S4096x512_0_0 : S4096x2048.Slices ![0, 0] S4096x512
  slices_S4096x2048_S4096x512_0_512 : S4096x2048.Slices ![0, 512] S4096x512
  slices_S4096x2048_S4096x512_0_1024 : S4096x2048.Slices ![0, 1024] S4096x512
  slices_S4096x2048_S4096x512_0_1536 : S4096x2048.Slices ![0, 1536] S4096x512
  bcast_S_S4096x512 : S_.BroadcastsInDim S4096x512 (![] : Fin 0 → Fin S4096x512.rank)
  gather_S4096x64x512_S4096x2_S4096x512_1_01_n_n_01_1_11512_wf : GatherDims.WF S4096x64x512 S4096x2 S4096x512 [1] [0, 1] [] [0, 1] [] 1 ![1, 1, 512]
  dot_S4096x512_S512x2048_S4096x2048_1_0_0_1_n_n_wf : DotDims.WF S4096x512 S512x2048 S4096x2048 [1] [0] [0] [1] [] []
  scatter_S4096x64x512_S4096x2_S4096x512_1_01_01_1_wf : ScatterDims.WF S4096x64x512 S4096x2 S4096x512 [1] [0, 1] [0, 1] 1

variable [Facts₀]

def gather_S4096x64x512_S4096x2_S4096x512_1_01_n_n_01_1_11512 : GatherDims S4096x64x512 S4096x2 S4096x512 where
  offsetDims := [1]
  collapsedSliceDims := [0, 1]
  operandBatchingDims := []
  startIndicesBatchingDims := []
  startIndexMap := [0, 1]
  indexVectorDim := 1
  sliceSizes := ![1, 1, 512]
  wf := gather_S4096x64x512_S4096x2_S4096x512_1_01_n_n_01_1_11512_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def scatter_S4096x64x512_S4096x2_S4096x512_1_01_01_1 : ScatterDims S4096x64x512 S4096x2 S4096x512 where
  updateWindowDims := [1]
  insertedWindowDims := [0, 1]
  scatterDimsToOperandDims := [0, 1]
  indexVectorDim := 1
  wf := scatter_S4096x64x512_S4096x2_S4096x512_1_01_01_1_wf

class Facts : Prop extends Facts₀ where

variable [Facts]
-- ==== Proof.KernelBlocks.lean ====
/-
  The input windows' blocks, read at an index, in terms of the argument arrays.

  At grid point `t` (of 256) the four row-tiled windows hold rows `16 t … 16 t + 15` of their arrays: the input rows (the
  argument narrowed to a shorter float format, which is the identity on the extended reals), the two stacks, and the
  positions (the argument reshaped `[4096] → [4096, 1]`). The four constant windows hold, whole, the two weight matrices
  TRANSPOSED (and narrowed) and the two biases reshaped `[2048] → [1, 2048]`.
-/
import proofs.«407907_j63728724738173_1_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-! ## The argument arrays, typed as functions of an index -/

abbrev aX (c : Dev nD) : S4096x512.Idx → EReal := m ((c : Thread nD τ).loc main_arg0)
abbrev aH (c : Dev nD) : S4096x64x512.Idx → EReal := m ((c : Thread nD τ).loc main_arg1)
abbrev aC (c : Dev nD) : S4096x64x512.Idx → EReal := m ((c : Thread nD τ).loc main_arg2)
abbrev aP (c : Dev nD) : S4096.Idx → BitVec 32 := m ((c : Thread nD τ).loc main_arg3)
abbrev aWi (c : Dev nD) : S2048x512.Idx → EReal := m ((c : Thread nD τ).loc main_arg4)
abbrev aWh (c : Dev nD) : S2048x512.Idx → EReal := m ((c : Thread nD τ).loc main_arg5)
abbrev abi (c : Dev nD) : S2048.Idx → EReal := m ((c : Thread nD τ).loc main_arg6)
abbrev abh (c : Dev nD) : S2048.Idx → EReal := m ((c : Thread nD τ).loc main_arg7)

/-- Row `r` of grid point `t`'s tile, as a row of the whole arrays. -/
def row (t : Fin cfg0.N) (r : Fin 16) : Fin 4096 :=
  ⟨16 * t.val + r.val, by have ht : t.val < 256 := t.isLt; have := r.isLt; omega⟩

theorem row_val (t : Fin cfg0.N) (r : Fin 16) : (row t r).val = 16 * t.val + r.val := rfl

/-! ## The arrays as the region finds them, through the host operations before it -/

theorem V_v7 (c : Dev nD) : (V m c main_v7 : S4096x512.Idx → EReal) = truncf (F := Ideal) .bf16 (aX m c) bitsLt_bf16_f32 := by
  dsimp only [Gen.V, Gen.hostOps0]; after_results

theorem V_v1 (c : Dev nD) : (V m c main_v1 : S512x2048.Idx → EReal)
    = truncf (F := Ideal) .bf16 (transpose S512x2048 [1, 0] (aWi m c) transposes_S2048x512_S512x2048_1_0) bitsLt_bf16_f32 := by
  dsimp only [Gen.V, Gen.hostOps0]; after_results

theorem V_v3 (c : Dev nD) : (V m c main_v3 : S512x2048.Idx → EReal)
    = truncf (F := Ideal) .bf16 (transpose S512x2048 [1, 0] (aWh m c) transposes_S2048x512_S512x2048_1_0) bitsLt_bf16_f32 := by
  dsimp only [Gen.V, Gen.hostOps0]; after_results

theorem V_v4 (c : Dev nD) : (V m c main_v4 : S1x2048.Idx → EReal) = shapeCast S1x2048 (abi m c) shapeCasts_S2048_S1x2048 := by
  dsimp only [Gen.V, Gen.hostOps0]; after_results; rfl

theorem V_v5 (c : Dev nD) : (V m c main_v5 : S1x2048.Idx → EReal) = shapeCast S1x2048 (abh m c) shapeCasts_S2048_S1x2048 := by
  dsimp only [Gen.V, Gen.hostOps0]; after_results; rfl

theorem V_v6 (c : Dev nD) : (V m c main_v6 : S4096x1.Idx → BitVec 32) = shapeCast S4096x1 (aP m c) shapeCasts_S4096_S4096x1 := by
  dsimp only [Gen.V, Gen.hostOps0]; after_results; rfl

/-! ## The index maps, decided over the 256 grid points -/

theorem idx_rows : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem idx_consts : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each block at an index -/

/-- The input rows' tile. -/
theorem iblk0_apply (c : Dev nD) (t : Fin cfg0.N) (r : Fin 16) (k : Fin 512) :
    (iblk m c 0 t : S16x512.Idx → EReal) (ix2 r k) = aX m c (ix2 (row t r) k) := by
  obtain ⟨e0, e1, -⟩ := idx_rows t
  show V m c main_v7 (((cfg0.win 0).blk t).view.emb (ix2 r k)) = _
  rw [V_v7]
  show aX m c (((cfg0.win 0).blk t).view.emb (ix2 r k)) = _
  refine congrArg (aX m c) (funext fun a => Fin.ext ?_)
  match a with
  | ⟨0, _⟩ => show win0_0.index t (0 : Fin 2) * 16 + 1 * r.val = 16 * t.val + r.val; omega
  | ⟨1, _⟩ => show win0_0.index t (1 : Fin 2) * 512 + 1 * k.val = k.val; omega

/-- The hidden stack's tile. -/
theorem iblk1_apply (c : Dev nD) (t : Fin cfg0.N) (r : Fin 16) (s : Fin 64) (k : Fin 512) :
    (iblk m c 1 t : S16x64x512.Idx → EReal) (ix3 r s k) = aH m c (ix3 (row t r) s k) := by
  obtain ⟨-, -, e0, e1, e2, -⟩ := idx_rows t
  show V m c main_arg1 (((cfg0.win 1).blk t).view.emb (ix3 r s k)) = _
  rw [V_main_arg1]
  refine congrArg (aH m c) (funext fun a => Fin.ext ?_)
  match a with
  | ⟨0, _⟩ => show win0_1.index t (0 : Fin 3) * 16 + 1 * r.val = 16 * t.val + r.val; omega
  | ⟨1, _⟩ => show win0_1.index t (1 : Fin 3) * 64 + 1 * s.val = s.val; omega
  | ⟨2, _⟩ => show win0_1.index t (2 : Fin 3) * 512 + 1 * k.val = k.val; omega

/-- The cell stack's tile. -/
theorem iblk2_apply (c : Dev nD) (t : Fin cfg0.N) (r : Fin 16) (s : Fin 64) (k : Fin 512) :
    (iblk m c 2 t : S16x64x512.Idx → EReal) (ix3 r s k) = aC m c (ix3 (row t r) s k) := by
  obtain ⟨-, -, -, -, -, e0, e1, e2, -⟩ := idx_rows t
  show V m c main_arg2 (((cfg0.win 2).blk t).view.emb (ix3 r s k)) = _
  rw [V_main_arg2]
  refine congrArg (aC m c) (funext fun a => Fin.ext ?_)
  match a with
  | ⟨0, _⟩ => show win0_2.index t (0 : Fin 3) * 16 + 1 * r.val = 16 * t.val + r.val; omega
  | ⟨1, _⟩ => show win0_2.index t (1 : Fin 3) * 64 + 1 * s.val = s.val; omega
  | ⟨2, _⟩ => show win0_2.index t (2 : Fin 3) * 512 + 1 * k.val = k.val; omega

/-- The positions' tile (a column). -/
theorem iblk3_apply (c : Dev nD) (t : Fin cfg0.N) (r : Fin 16) :
    (iblk m c 3 t : S16x1.Idx → BitVec 32) (ix2 r (0 : Fin 1)) = aP m c (ix1 (row t r)) := by
  obtain ⟨-, -, -, -, -, -, -, -, e0, e1⟩ := idx_rows t
  show V m c main_v6 (((cfg0.win 3).blk t).view.emb (ix2 r (0 : Fin 1))) = _
  rw [V_v6]
  refine shapeCast_apply _ _ _ _ ?_
  rw [Shape.rowMajor_val_two, Shape.rowMajor_val_one]
  show 16 * t.val + r.val = (win0_3.index t (0 : Fin 2) * 16 + 1 * r.val) * 1 + (win0_3.index t (1 : Fin 2) * 1 + 1 * 0)
  omega

/-- The first weight matrix, transposed: entry `(k, j)` is `Wi[j, k]`. -/
theorem iblk4_apply (c : Dev nD) (t : Fin cfg0.N) (k : Fin 512) (j : Fin 2048) :
    (iblk m c 4 t : S512x2048.Idx → EReal) (ix2 k j) = aWi m c (ix2 j k) := by
  obtain ⟨e0, e1, -⟩ := idx_consts t
  show V m c main_v1 (((cfg0.win 4).blk t).view.emb (ix2 k j)) = _
  have he : ((cfg0.win 4).blk t).view.emb (ix2 k j) = (ix2 k j : S512x2048.Idx) := funext fun a => Fin.ext (by
    match a with
    | ⟨0, _⟩ => show win0_4.index t (0 : Fin 2) * 512 + 1 * k.val = k.val; omega
    | ⟨1, _⟩ => show win0_4.index t (1 : Fin 2) * 2048 + 1 * j.val = j.val; omega)
  refine (congrArg (V m c main_v1) he).trans ?_
  rw [V_v1]
  exact transpose_ix2_apply (aWi m c) transposes_S2048x512_S512x2048_1_0 k j

/-- The second weight matrix, transposed: entry `(k, j)` is `Wh[j, k]`. -/
theorem iblk5_apply (c : Dev nD) (t : Fin cfg0.N) (k : Fin 512) (j : Fin 2048) :
    (iblk m c 5 t : S512x2048.Idx → EReal) (ix2 k j) = aWh m c (ix2 j k) := by
  obtain ⟨-, -, e0, e1, -⟩ := idx_consts t
  show V m c main_v3 (((cfg0.win 5).blk t).view.emb (ix2 k j)) = _
  have he : ((cfg0.win 5).blk t).view.emb (ix2 k j) = (ix2 k j : S512x2048.Idx) := funext fun a => Fin.ext (by
    match a with
    | ⟨0, _⟩ => show win0_5.index t (0 : Fin 2) * 512 + 1 * k.val = k.val; omega
    | ⟨1, _⟩ => show win0_5.index t (1 : Fin 2) * 2048 + 1 * j.val = j.val; omega)
  refine (congrArg (V m c main_v3) he).trans ?_
  rw [V_v3]
  exact transpose_ix2_apply (aWh m c) transposes_S2048x512_S512x2048_1_0 k j

/-- The first bias, as a row. -/
theorem iblk6_apply (c : Dev nD) (t : Fin cfg0.N) (j : Fin 2048) :
    (iblk m c 6 t : S1x2048.Idx → EReal) (ix2 (0 : Fin 1) j) = abi m c (ix1 j) := by
  obtain ⟨-, -, -, -, e0, e1, -⟩ := idx_consts t
  show V m c main_v4 (((cfg0.win 6).blk t).view.emb (ix2 (0 : Fin 1) j)) = _
  have he : ((cfg0.win 6).blk t).view.emb (ix2 (0 : Fin 1) j) = (ix2 (0 : Fin 1) j : S1x2048.Idx) := funext fun a => Fin.ext (by
    match a with
    | ⟨0, _⟩ => show win0_6.index t (0 : Fin 2) * 1 + 1 * 0 = 0; omega
    | ⟨1, _⟩ => show win0_6.index t (1 : Fin 2) * 2048 + 1 * j.val = j.val; omega)
  refine (congrArg (V m c main_v4) he).trans ?_
  rw [V_v4]
  exact shapeCast_a_1a_apply (abi m c) shapeCasts_S2048_S1x2048 0 j

/-- The second bias, as a row. -/
theorem iblk7_apply (c : Dev nD) (t : Fin cfg0.N) (j : Fin 2048) :
    (iblk m c 7 t : S1x2048.Idx → EReal) (ix2 (0 : Fin 1) j) = abh m c (ix1 j) := by
  obtain ⟨-, -, -, -, -, -, e0, e1⟩ := idx_consts t
  show V m c main_v5 (((cfg0.win 7).blk t).view.emb (ix2 (0 : Fin 1) j)) = _
  have he : ((cfg0.win 7).blk t).view.emb (ix2 (0 : Fin 1) j) = (ix2 (0 : Fin 1) j : S1x2048.Idx) := funext fun a => Fin.ext (by
    match a with
    | ⟨0, _⟩ => show win0_7.index t (0 : Fin 2) * 1 + 1 * 0 = 0; omega
    | ⟨1, _⟩ => show win0_7.index t (1 : Fin 2) * 2048 + 1 * j.val = j.val; omega)
  refine (congrArg (V m c main_v5) he).trans ?_
  rw [V_v5]
  exact shapeCast_a_1a_apply (abh m c) shapeCasts_S2048_S1x2048 0 j

end Cert.KernelIdeal.Blocks

end
-- ==== Proof.KernelRead.lean ====
/-
  The kernel body's arithmetic read at an index, on the extended reals.

  * The two masks: entry `(r, s)` of the first is one where stack slot `s` IS row `r`'s position word and zero elsewhere;
    of the second, where slot `s` is that word plus one.
  * A stack block weighted by a mask and summed over the slot axis: at `(r, k)` the sum over slots `s` of
    `mask[r, s] · block[r, s, k]`; when the mask is one at exactly one slot `p` of row `r` that sum is `block[r, p, k]`
    (zero times anything is zero on the extended reals, and adding zeros changes nothing).
  * The gate pre-activations before the second bias: at `(r, j)` the input row against column `j` of the first weight
    block, plus the selected hidden row against column `j` of the second, plus the first bias (narrowing a float to a
    shorter format is the identity on the extended reals).
-/
import proofs.«407907_j63728724738173_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRead

open Idealize.ShloMosaic Idealize.ShloMosaic.ValueIdx Cert.KernelIdeal Cert.KernelIdeal.Gen

/-- A `[a, 1]` column broadcast along the second axis reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of an equality test, widened to 32 bits and read as a signed integer on the extended reals:
    one when the words are equal, zero when they are not. -/
theorem mask_word (x y : BitVec 32) :
    (FloatOps.sitofp (F := Ideal) .f32 ((IntOp.cmpi .eq x y).setWidth 32) : Ideal .f32) = if x = y then (1 : EReal) else 0 := by
  by_cases h : x = y
  · have e : IntOp.cmpi .eq x y = 1#1 := IntOp.cmpi_eq.2 h
    rw [e, if_pos h]
    show ((((1#1 : BitVec 1).setWidth 32).toInt : ℝ) : EReal) = 1
    have e1 : ((1#1 : BitVec 1).setWidth 32).toInt = 1 := by decide
    rw [e1]; simp
  · have e : IntOp.cmpi .eq x y = 0#1 := eq_zero_of_ne_one (fun h1 => h (IntOp.cmpi_eq.1 h1))
    rw [e, if_neg h]
    show ((((0#1 : BitVec 1).setWidth 32).toInt : ℝ) : EReal) = 0
    have e0 : ((0#1 : BitVec 1).setWidth 32).toInt = 0 := by decide
    rw [e0]; simp

/-- An `[a, b]` array cast to `[a, b, 1]` reads, at `(i, j, u)`, the operand at `(i, j)`, whatever the unit coordinate. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its last axis to `[a, b, c]` reads, at `(i, j, k)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The matmul's left operand index at output `i` and contraction position `q`: axis 0 is the output row. -/
theorem lhs_dot_S16x512_S512x2048_S16x2048_1_0_0_1_n_n_0 (i : S16x2048.Idx) (q : dot_S16x512_S512x2048_S16x2048_1_0_0_1_n_n.contr.Idx) :
    (dot_S16x512_S512x2048_S16x2048_1_0_0_1_n_n.lhsIdx i q 0).val = (i 0).val := by
  unfold DotDims.lhsIdx
  rw [dif_neg (show ¬(0 : Fin S16x512.rank) ∈ dot_S16x512_S512x2048_S16x2048_1_0_0_1_n_n.lhsBatch by decide), dif_pos (show (0 : Fin S16x512.rank) ∈ dot_S16x512_S512x2048_S16x2048_1_0_0_1_n_n.lhsNonContracting by decide)]
  rfl
/-- … and axis 1 is the contraction position. -/
theorem lhs_dot_S16x512_S512x2048_S16x2048_1_0_0_1_n_n_1 (i : S16x2048.Idx) (q : dot_S16x512_S512x2048_S16x2048_1_0_0_1_n_n.contr.Idx) :
    (dot_S16x512_S512x2048_S16x2048_1_0_0_1_n_n.lhsIdx i q 1).val = (q ⟨0, by decide⟩).val :=
  dot_S16x512_S512x2048_S16x2048_1_0_0_1_n_n.lhsIdx_val_of_single rfl i q
/-- The right operand index: axis 0 is the contraction position … -/
theorem rhs_dot_S16x512_S512x2048_S16x2048_1_0_0_1_n_n_0 (i : S16x2048.Idx) (q : dot_S16x512_S512x2048_S16x2048_1_0_0_1_n_n.contr.Idx) :
    (dot_S16x512_S512x2048_S16x2048_1_0_0_1_n_n.rhsIdx i q 0).val = (q ⟨0, by decide⟩).val :=
  dot_S16x512_S512x2048_S16x2048_1_0_0_1_n_n.rhsIdx_val_of_single rfl i q
/-- … and axis 1 is the output column. -/
theorem rhs_dot_S16x512_S512x2048_S16x2048_1_0_0_1_n_n_1 (i : S16x2048.Idx) (q : dot_S16x512_S512x2048_S16x2048_1_0_0_1_n_n.contr.Idx) :
    (dot_S16x512_S512x2048_S16x2048_1_0_0_1_n_n.rhsIdx i q 1).val = (i 1).val := by
  unfold DotDims.rhsIdx
  rw [dif_neg (show ¬(1 : Fin S512x2048.rank) ∈ dot_S16x512_S512x2048_S16x2048_1_0_0_1_n_n.rhsBatch by decide), dif_pos (show (1 : Fin S512x2048.rank) ∈ dot_S16x512_S512x2048_S16x2048_1_0_0_1_n_n.rhsNonContracting by decide)]
  rfl

/-- The `[16, 512] × [512, 2048]` matmul into the zero block, at `(r, j)`: the row of the left operand against the
    column of the right one. -/
theorem matmul_zero_apply (X : FVec Ideal S16x512 .bf16) (W : FVec Ideal S512x2048 .bf16) (r : Fin 16) (j : Fin 2048) :
    matmul dot_S16x512_S512x2048_S16x2048_1_0_0_1_n_n none X W (constant S16x2048 .f32 0x00000000#32) (ix2 r j)
      = ∑ k : Fin 512, X (ix2 r k) * W (ix2 k j) := by
  simp only [matmul]
  rw [Ideal.matmul_constant_zero_apply, ← Equiv.sum_comp (ValueIdx.contrEquiv1 dot_S16x512_S512x2048_S16x2048_1_0_0_1_n_n 512 rfl rfl).symm]
  refine Finset.sum_congr rfl fun k _ => ?_
  have hk := ValueIdx.contrEquiv1_symm_val dot_S16x512_S512x2048_S16x2048_1_0_0_1_n_n 512 rfl rfl k
  have el : dot_S16x512_S512x2048_S16x2048_1_0_0_1_n_n.lhsIdx (ix2 r j) ((ValueIdx.contrEquiv1 dot_S16x512_S512x2048_S16x2048_1_0_0_1_n_n 512 rfl rfl).symm k) = ix2 r k := funext fun a => Fin.ext (by
    match a with
    | ⟨0, _⟩ => exact lhs_dot_S16x512_S512x2048_S16x2048_1_0_0_1_n_n_0 _ _
    | ⟨1, _⟩ => exact (lhs_dot_S16x512_S512x2048_S16x2048_1_0_0_1_n_n_1 _ _).trans hk)
  have er : dot_S16x512_S512x2048_S16x2048_1_0_0_1_n_n.rhsIdx (ix2 r j) ((ValueIdx.contrEquiv1 dot_S16x512_S512x2048_S16x2048_1_0_0_1_n_n 512 rfl rfl).symm k) = ix2 k j := funext fun a => Fin.ext (by
    match a with
    | ⟨0, _⟩ => exact (rhs_dot_S16x512_S512x2048_S16x2048_1_0_0_1_n_n_0 _ _).trans hk
    | ⟨1, _⟩ => exact rhs_dot_S16x512_S512x2048_S16x2048_1_0_0_1_n_n_1 _ _)
  rw [el, er]

/-- The first mask at `(r, s)`: one iff slot `s`, as a 32-bit word, is row `r`'s position word. -/
theorem mask_top (P : Vec Ideal S16x1 .i32) (r : Fin 16) (s : Fin 64) :
    k0_pay2 (F := Ideal) P (ix2 r s) = if BitVec.ofNat 32 s.val = P (ix2 r (0 : Fin 1)) then (1 : EReal) else 0 := by
  have e1 : iota Kind.tc S16x64 32 [1] iota_S16x64_d1_w32 (ix2 r s) = BitVec.ofNat 32 s.val :=
    iota_single_apply _ _ _ _ _ _
  have e2 : broadcastTo S16x64 (shapeCast S16x1 P shapeCasts_S16x1_S16x1) broadcasts_S16x1_S16x64 (ix2 r s)
      = P (ix2 r (0 : Fin 1)) := by
    rw [shapeCast_self]; exact broadcastTo_a1_ab_apply _ _ _ _
  unfold k0_pay2 k0_pay1
  show FloatOps.sitofp .f32 ((IntOp.cmpi .eq (iota Kind.tc S16x64 32 [1] iota_S16x64_d1_w32 (ix2 r s))
    (broadcastTo S16x64 (shapeCast S16x1 P shapeCasts_S16x1_S16x1) broadcasts_S16x1_S16x64 (ix2 r s))).setWidth 32) = _
  rw [e1, e2]
  exact mask_word _ _

/-- The second mask at `(r, s)`: one iff slot `s`, as a 32-bit word, is row `r`'s position word plus one. -/
theorem mask_next (P : Vec Ideal S16x1 .i32) (r : Fin 16) (s : Fin 64) :
    k0_pay3 (F := Ideal) P (ix2 r s) = if BitVec.ofNat 32 s.val = P (ix2 r (0 : Fin 1)) + 1#32 then (1 : EReal) else 0 := by
  have e1 : iota Kind.tc S16x64 32 [1] iota_S16x64_d1_w32 (ix2 r s) = BitVec.ofNat 32 s.val :=
    iota_single_apply _ _ _ _ _ _
  have e2 : broadcastTo S16x64 (addi (shapeCast S16x1 P shapeCasts_S16x1_S16x1) (broadcast S16x1 1#32)) broadcasts_S16x1_S16x64 (ix2 r s)
      = P (ix2 r (0 : Fin 1)) + 1#32 := by
    rw [shapeCast_self]; exact broadcastTo_a1_ab_apply _ _ _ _
  unfold k0_pay3 k0_pay1
  show FloatOps.sitofp .f32 ((IntOp.cmpi .eq (iota Kind.tc S16x64 32 [1] iota_S16x64_d1_w32 (ix2 r s))
    (broadcastTo S16x64 (addi (shapeCast S16x1 P shapeCasts_S16x1_S16x1) (broadcast S16x1 1#32)) broadcasts_S16x1_S16x64 (ix2 r s))).setWidth 32) = _
  rw [e1, e2]
  exact mask_word _ _

/-- A stack block weighted by a mask and summed over the slot axis, at `(r, k)`. -/
theorem masked_sum (M : FVec Ideal S16x64 .f32) (A : FVec Ideal S16x64x512 .f32) (r : Fin 16) (k : Fin 512) :
    (multiReduction .add [1] S16x512 (mulf (broadcastTo S16x64x512 (shapeCast S16x64x1 M shapeCasts_S16x64_S16x64x1) broadcasts_S16x64x1_S16x64x512) A) 0x00000000#32 reduces_S16x64x512_S16x512 (.inl rfl) rfl) (ix2 r k)
      = ∑ s : Fin 64, M (ix2 r s) * A (ix3 r s k) := by
  refine (Ideal.multiReduction_add_single _ 0x00000000#32 reduces_S16x64x512_S16x512 (.inl rfl) rfl (ix2 r k)).trans ?_
  show ∑ s : Fin 64, mulf (broadcastTo S16x64x512 (shapeCast S16x64x1 M shapeCasts_S16x64_S16x64x1) broadcasts_S16x64x1_S16x64x512) A
        (reduces_S16x64x512_S16x512.lift (ix2 r k) s) = _
  refine Finset.sum_congr rfl fun s _ => ?_
  have el : reduces_S16x64x512_S16x512.lift (ix2 r k) s = ix3 r s k := by
    funext a
    match a with
    | ⟨0, _⟩ => rfl
    | ⟨1, _⟩ => rfl
    | ⟨2, _⟩ => rfl
  rw [el, mulf_apply]
  refine congrArg (· * A (ix3 r s k)) ?_
  exact (broadcastTo_ab1_abc_apply _ _ r s k).trans (shapeCast_ab_ab1_apply M _ r s 0)

/-- A mask that is one at exactly slot `p` of row `r` selects that slot's row. -/
theorem onehot_sum (M : FVec Ideal S16x64 .f32) (A : FVec Ideal S16x64x512 .f32) (r : Fin 16) (k : Fin 512) (p : Fin 64)
    (hM : ∀ s : Fin 64, M (ix2 r s) = if s = p then (1 : EReal) else 0) :
    (∑ s : Fin 64, M (ix2 r s) * A (ix3 r s k)) = A (ix3 r p k) := by
  rw [Finset.sum_eq_single p]
  · rw [hM p, if_pos rfl, one_mul]
  · intro s _ hs
    rw [hM s, if_neg hs, zero_mul]
  · intro hp; exact absurd (Finset.mem_univ p) hp

/-- The row the first mask selects: when row `r`'s position word is the slot `p`, the masked sum is the block's row at `p`. -/
theorem top_row (P : Vec Ideal S16x1 .i32) (A : FVec Ideal S16x64x512 .f32) (r : Fin 16) (k : Fin 512) (p : Fin 64)
    (hp : P (ix2 r (0 : Fin 1)) = BitVec.ofNat 32 p.val) :
    (multiReduction .add [1] S16x512 (mulf (broadcastTo S16x64x512 (shapeCast S16x64x1 (k0_pay2 (F := Ideal) P) shapeCasts_S16x64_S16x64x1) broadcasts_S16x64x1_S16x64x512) A) 0x00000000#32 reduces_S16x64x512_S16x512 (.inl rfl) rfl) (ix2 r k)
      = A (ix3 r p k) := by
  refine (masked_sum (k0_pay2 (F := Ideal) P) A r k).trans ?_
  refine onehot_sum _ A r k p fun s => ?_
  rw [mask_top, hp]
  have hiff : BitVec.ofNat 32 s.val = BitVec.ofNat 32 p.val ↔ s = p := by
    constructor
    · intro h
      have h2 := congrArg BitVec.toNat h
      simp only [BitVec.toNat_ofNat] at h2
      have hs := s.isLt
      have hp' := p.isLt
      exact Fin.ext (by omega)
    · rintro rfl; rfl
  simp only [hiff]

/-- The gate pre-activations before the second bias, at `(r, j)`, when row `r`'s position word is the slot `p`. -/
theorem pay5_apply (P0 : Vec Ideal S16x1 .i32) (P1 : FVec Ideal S16x64x512 .f32) (P2 : FVec Ideal S16x512 .bf16)
    (P3 P4 : FVec Ideal S512x2048 .bf16) (P5 : FVec Ideal S1x2048 .f32) (r : Fin 16) (j : Fin 2048) (p : Fin 64)
    (hp : P0 (ix2 r (0 : Fin 1)) = BitVec.ofNat 32 p.val) :
    k0_pay5 (F := Ideal) P0 P1 P2 P3 P4 P5 (ix2 r j)
      = (∑ k : Fin 512, P2 (ix2 r k) * P3 (ix2 k j)) + (∑ k : Fin 512, P1 (ix3 r p k) * P4 (ix2 k j)) + P5 (ix2 (0 : Fin 1) j) := by
  unfold k0_pay5
  dsimp only
  rw [addf_apply, addf_apply, matmul_zero_apply, matmul_zero_apply]
  refine congrArg₂ (· + ·) (congrArg₂ (· + ·) ?_ ?_) ?_
  · refine Finset.sum_congr rfl fun k _ => ?_
    rw [shapeCast_self, shapeCast_self]
  · refine Finset.sum_congr rfl fun k _ => ?_
    rw [shapeCast_self]
    refine congrArg (· * P4 (ix2 k j)) ?_
    exact (truncf_apply (ψ := .bf16) _ bitsLt_bf16_f32 (ix2 r k)).trans (top_row P0 P1 r k p hp)
  · rw [shapeCast_self]
    exact broadcastTo_1b_ab_apply _ _ r j

end Cert.KernelIdeal.BodyRead

end
-- ==== Proof.Spec.lean ====
/-
  THE SPECIFICATION: one LSTM-cell step at the top of a stack, as functions of the argument arrays, index by index,
  on the extended reals.

  Inputs: `X : [4096, 512]` (the step's input rows), `Hs, Cs : [4096, 64, 512]` (a stack of 64 hidden / cell rows per
  batch element), `P : [4096]` (each batch element's top-of-stack slot, a 32-bit word), the weights `Wi, Wh : [2048, 512]`
  and the biases `bi, bh : [2048]`.
  For batch element `b`: `h = Hs[b, top b, ·]`, `c = Cs[b, top b, ·]`; the four gate pre-activations are
  `gate b j = Σ_k X[b,k]·Wi[j,k] + Σ_k h[k]·Wh[j,k] + bi[j] + bh[j]` (`j` in four blocks of 512: input, forget, cell,
  output); `c' = σ(forget)·c + σ(input)·tanh(cell)`, `h' = σ(output)·tanh(c')`; and the new stacks are the old ones with
  row `top b + 1` of batch element `b` replaced by `h'` / `c'` (nothing replaced when `top b + 1 = 64`: no such row).
-/
import Idealize.ShloMosaic.PureOps.Ideal
import Idealize.ShloMosaic.Lib.ValueIdx

noncomputable section

namespace Cert.StackCell

open Idealize.ShloMosaic Idealize.ShloMosaic.ValueIdx

abbrev SX : Shape := ⟨2, ![4096, 512]⟩
abbrev SS : Shape := ⟨3, ![4096, 64, 512]⟩
abbrev SP : Shape := ⟨1, ![4096]⟩
abbrev SW : Shape := ⟨2, ![2048, 512]⟩
abbrev SB : Shape := ⟨1, ![2048]⟩

/-- Batch element `b`'s top-of-stack slot, as a coordinate of the stack axis (the word itself when it is in `[0, 64)`). -/
def top (P : SP.Idx → BitVec 32) (b : Fin 4096) : Fin 64 := ⟨(P (ix1 b)).toNat % 64, Nat.mod_lt _ (by decide)⟩

/-- The row of a stack at each batch element's top slot. -/
def topRow (A : SS.Idx → EReal) (P : SP.Idx → BitVec 32) (b : Fin 4096) (k : Fin 512) : EReal := A (ix3 b (top P b) k)

/-- The gate pre-activations: input rows against `Wi`, the top hidden row against `Wh`, and the two biases. -/
def gate (X : SX.Idx → EReal) (Hs : SS.Idx → EReal) (P : SP.Idx → BitVec 32) (Wi Wh : SW.Idx → EReal) (bi bh : SB.Idx → EReal)
    (b : Fin 4096) (j : Fin 2048) : EReal :=
  (∑ k : Fin 512, X (ix2 b k) * Wi (ix2 j k)) + (∑ k : Fin 512, topRow Hs P b k * Wh (ix2 j k)) + bi (ix1 j) + bh (ix1 j)

/-- Column `k` of gate block `q` (`q = 0, 1, 2, 3`: input, forget, cell, output). -/
abbrev gcol (q : Nat) (hq : q < 4) (k : Fin 512) : Fin 2048 := ⟨k.val + 512 * q, by have := k.isLt; omega⟩

/-- The new cell row. -/
def cNew (X : SX.Idx → EReal) (Hs Cs : SS.Idx → EReal) (P : SP.Idx → BitVec 32) (Wi Wh : SW.Idx → EReal) (bi bh : SB.Idx → EReal)
    (b : Fin 4096) (k : Fin 512) : EReal :=
  Ideal.logistic (gate X Hs P Wi Wh bi bh b (gcol 1 (by decide) k)) * topRow Cs P b k
    + Ideal.logistic (gate X Hs P Wi Wh bi bh b (gcol 0 (by decide) k)) * Ideal.tanh (gate X Hs P Wi Wh bi bh b (gcol 2 (by decide) k))

/-- The new hidden row. -/
def hNew (X : SX.Idx → EReal) (Hs Cs : SS.Idx → EReal) (P : SP.Idx → BitVec 32) (Wi Wh : SW.Idx → EReal) (bi bh : SB.Idx → EReal)
    (b : Fin 4096) (k : Fin 512) : EReal :=
  Ideal.logistic (gate X Hs P Wi Wh bi bh b (gcol 3 (by decide) k)) * Ideal.tanh (cNew X Hs Cs P Wi Wh bi bh b k)

/-- A stack with the row above each batch element's top slot replaced by that element's new row. -/
def push (A : SS.Idx → EReal) (P : SP.Idx → BitVec 32) (v : Fin 4096 → Fin 512 → EReal) (b : Fin 4096) (s : Fin 64) (k : Fin 512) : EReal :=
  if s.val = (top P b).val + 1 then v b k else A (ix3 b s k)

/-! The four results as arrays. -/

def outH (X : SX.Idx → EReal) (Hs Cs : SS.Idx → EReal) (P : SP.Idx → BitVec 32) (Wi Wh : SW.Idx → EReal) (bi bh : SB.Idx → EReal) : SX.Idx → EReal :=
  fun i => hNew X Hs Cs P Wi Wh bi bh ⟨(i 0).val, idx2_lt0 i⟩ ⟨(i 1).val, idx2_lt1 i⟩

def outC (X : SX.Idx → EReal) (Hs Cs : SS.Idx → EReal) (P : SP.Idx → BitVec 32) (Wi Wh : SW.Idx → EReal) (bi bh : SB.Idx → EReal) : SX.Idx → EReal :=
  fun i => cNew X Hs Cs P Wi Wh bi bh ⟨(i 0).val, idx2_lt0 i⟩ ⟨(i 1).val, idx2_lt1 i⟩

def outHs (X : SX.Idx → EReal) (Hs Cs : SS.Idx → EReal) (P : SP.Idx → BitVec 32) (Wi Wh : SW.Idx → EReal) (bi bh : SB.Idx → EReal) : SS.Idx → EReal :=
  fun i => push Hs P (hNew X Hs Cs P Wi Wh bi bh) ⟨(i 0).val, (i 0).isLt⟩ ⟨(i 1).val, (i 1).isLt⟩ ⟨(i 2).val, (i 2).isLt⟩

def outCs (X : SX.Idx → EReal) (Hs Cs : SS.Idx → EReal) (P : SP.Idx → BitVec 32) (Wi Wh : SW.Idx → EReal) (bi bh : SB.Idx → EReal) : SS.Idx → EReal :=
  fun i => push Cs P (cNew X Hs Cs P Wi Wh bi bh) ⟨(i 0).val, (i 0).isLt⟩ ⟨(i 1).val, (i 1).isLt⟩ ⟨(i 2).val, (i 2).isLt⟩

/-- The float word of `1.0` denotes the real one. -/
theorem ofBits_one : Ideal.ofBits .f32 0x3F800000#32 = 1 := by
  simp [Ideal.ofBits, Ideal.ieee, -EReal.coe_mul]; norm_num

/-- Under the range `0 ≤ p < 64` (read signed) the top slot is the word's value. -/
theorem top_val (P : SP.Idx → BitVec 32) (b : Fin 4096) (h0 : 0 ≤ (P (ix1 b)).toInt) (h1 : (P (ix1 b)).toInt < 64) :
    ((top P b).val : Int) = (P (ix1 b)).toInt := by
  have hlt : (P (ix1 b)).toNat < 2 ^ 32 := (P (ix1 b)).isLt
  have hc := BitVec.toInt_eq_toNat_cond (P (ix1 b))
  show (((P (ix1 b)).toNat % 64 : Nat) : Int) = _
  split_ifs at hc <;> omega

end Cert.StackCell

end
-- ==== Proof.KernelPay.lean ====
/-
  The rest of the kernel body's arithmetic read at an index, on the extended reals: the pre-activations with the second
  bias added, the new cell and hidden rows (the four gates are the four 512-column blocks of the pre-activations), and the
  blend that writes a new row into the stack slot the second mask marks and keeps every other slot.
-/
import proofs.«407907_j63728724738173_1_alg».proof.Proof.KernelRead
import proofs.«407907_j63728724738173_1_alg».proof.Proof.Spec

noncomputable section

namespace Cert.KernelIdeal.BodyRead

open Idealize.ShloMosaic Idealize.ShloMosaic.ValueIdx Cert.KernelIdeal Cert.KernelIdeal.Gen Cert.StackCell

/-- Gate block `q` of a `[16, 2048]` block: its 512-column slice from column `512 q` reads, at `(r, k)`, column `k` of that block. -/
theorem slice_gate (Z : FVec Ideal S16x2048 .f32) (o q : Nat) (hq : q < 4) (ho : o = 512 * q)
    (h : S16x2048.Slices ![0, o] S16x512) (r : Fin 16) (k : Fin 512) :
    extractStridedSlice S16x512 ![0, o] Z h (ix2 r k) = Z (ix2 r (gcol q hq k)) :=
  slice2_axis1_apply o Z h r k (gcol q hq k) (by show k.val + 512 * q = o + k.val; omega)

/-- An `[a, b]` array with a unit last axis added and broadcast along it to `[a, b, c]` reads, at `(i, j, k)`, the
    operand at `(i, j)`. -/
theorem keepdims_last_apply {α : Type} {a b c : ℕ} (M : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ M h1) h2 (ix3 i j k) = M (ix2 i j) :=
  (broadcastTo_ab1_abc_apply _ h2 i j k).trans (shapeCast_ab_ab1_apply M h1 i j 0)

/-- An `[a, c]` array cast to `[a, 1, c]` reads, at `(i, u, k)`, the operand at `(i, k)`, whatever the unit coordinate. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast along its middle axis to `[a, b, c]` reads, at `(i, j, k)`, the operand at `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, c]` array with a unit middle axis added and broadcast along it to `[a, b, c]` reads, at `(i, j, k)`, the
    operand at `(i, k)`. -/
theorem keepdims_mid_apply {α : Type} {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h1) h2 (ix3 i j k) = x (ix2 i k) :=
  (broadcastTo_a1c_abc_apply _ h2 i j k).trans (shapeCast_ac_a1c_apply x h1 i 0 k)

/-- One minus the mask, at `(r, s)`. -/
theorem pay9_apply (v12 : FVec Ideal S16x64 .f32) (r : Fin 16) (s : Fin 64) :
    k0_pay9 (F := Ideal) v12 (ix2 r s) = 1 - v12 (ix2 r s) := by
  unfold k0_pay9
  rw [subf_apply, broadcast_apply]
  show Ideal.ofBits .f32 0x3F800000#32 - _ = _
  rw [ofBits_one]

/-- The pre-activations with the second bias, at `(r, j)`. -/
theorem pay6_apply (v36 : FVec Ideal S16x2048 .f32) (v37 : FVec Ideal S1x2048 .f32) (r : Fin 16) (j : Fin 2048) :
    k0_pay6 (F := Ideal) v36 v37 (ix2 r j) = v36 (ix2 r j) + v37 (ix2 (0 : Fin 1) j) := by
  unfold k0_pay6
  rw [addf_apply, shapeCast_self]
  exact congrArg (v36 (ix2 r j) + ·) (broadcastTo_1b_ab_apply _ _ r j)

/-- The new cell row at `(r, k)`: forget gate times the old cell row plus input gate times the cell candidate. -/
theorem pay7_apply (v22 : FVec Ideal S16x512 .f32) (v36 : FVec Ideal S16x2048 .f32) (v37 : FVec Ideal S1x2048 .f32) (r : Fin 16) (k : Fin 512) :
    k0_pay7 (F := Ideal) v22 v36 v37 (ix2 r k)
      = Ideal.logistic (k0_pay6 (F := Ideal) v36 v37 (ix2 r (gcol 1 (by decide) k))) * v22 (ix2 r k)
        + Ideal.logistic (k0_pay6 (F := Ideal) v36 v37 (ix2 r (gcol 0 (by decide) k))) * Ideal.tanh (k0_pay6 (F := Ideal) v36 v37 (ix2 r (gcol 2 (by decide) k))) := by
  unfold k0_pay7
  rw [addf_apply, mulf_apply, mulf_apply,
    ← slice_gate (k0_pay6 v36 v37) 512 1 (by decide) rfl slices_S16x2048_o0_512_S16x512 r k,
    ← slice_gate (k0_pay6 v36 v37) 0 0 (by decide) rfl slices_S16x2048_o0_0_S16x512 r k,
    ← slice_gate (k0_pay6 v36 v37) 1024 2 (by decide) rfl slices_S16x2048_o0_1024_S16x512 r k]
  rfl

/-- The new hidden row at `(r, k)`: output gate times the hyperbolic tangent of the new cell row. -/
theorem pay8_apply (v22 : FVec Ideal S16x512 .f32) (v36 : FVec Ideal S16x2048 .f32) (v37 : FVec Ideal S1x2048 .f32) (r : Fin 16) (k : Fin 512) :
    k0_pay8 (F := Ideal) v22 v36 v37 (ix2 r k)
      = Ideal.logistic (k0_pay6 (F := Ideal) v36 v37 (ix2 r (gcol 3 (by decide) k))) * Ideal.tanh (k0_pay7 (F := Ideal) v22 v36 v37 (ix2 r k)) := by
  unfold k0_pay8
  rw [mulf_apply, ← slice_gate (k0_pay6 v36 v37) 1536 3 (by decide) rfl slices_S16x2048_o0_1536_S16x512 r k]
  rfl

/-- The hidden stack's blend at `(r, s, k)`: the old entry times one minus the mask, plus the mask times the new hidden row. -/
theorem pay10_apply (v12 : FVec Ideal S16x64 .f32) (v22 : FVec Ideal S16x512 .f32) (v36 : FVec Ideal S16x2048 .f32) (v37 : FVec Ideal S1x2048 .f32)
    (v58 : FVec Ideal S16x64x512 .f32) (r : Fin 16) (s : Fin 64) (k : Fin 512) :
    k0_pay10 (F := Ideal) v12 v22 v36 v37 v58 (ix3 r s k)
      = v58 (ix3 r s k) * (1 - v12 (ix2 r s)) + v12 (ix2 r s) * k0_pay8 (F := Ideal) v22 v36 v37 (ix2 r k) := by
  unfold k0_pay10
  rw [addf_apply, mulf_apply, mulf_apply]
  have e1 := keepdims_last_apply (k0_pay9 (F := Ideal) v12) shapeCasts_S16x64_S16x64x1 broadcasts_S16x64x1_S16x64x512 r s k
  have e2 := keepdims_last_apply v12 shapeCasts_S16x64_S16x64x1 broadcasts_S16x64x1_S16x64x512 r s k
  have e3 := keepdims_mid_apply (k0_pay8 (F := Ideal) v22 v36 v37) shapeCasts_S16x512_S16x1x512 broadcasts_S16x1x512_S16x64x512 r s k
  rw [e1, e2, e3, pay9_apply]

/-- The cell stack's blend at `(r, s, k)`: the old entry times one minus the mask, plus the mask times the new cell row. -/
theorem pay11_apply (v12 : FVec Ideal S16x64 .f32) (v22 : FVec Ideal S16x512 .f32) (v36 : FVec Ideal S16x2048 .f32) (v37 : FVec Ideal S1x2048 .f32)
    (v69 : FVec Ideal S16x64x512 .f32) (r : Fin 16) (s : Fin 64) (k : Fin 512) :
    k0_pay11 (F := Ideal) v12 v22 v36 v37 v69 (ix3 r s k)
      = v69 (ix3 r s k) * (1 - v12 (ix2 r s)) + v12 (ix2 r s) * k0_pay7 (F := Ideal) v22 v36 v37 (ix2 r k) := by
  unfold k0_pay11
  rw [addf_apply, mulf_apply, mulf_apply]
  have e1 := keepdims_last_apply (k0_pay9 (F := Ideal) v12) shapeCasts_S16x64_S16x64x1 broadcasts_S16x64x1_S16x64x512 r s k
  have e2 := keepdims_last_apply v12 shapeCasts_S16x64_S16x64x1 broadcasts_S16x64x1_S16x64x512 r s k
  have e3 := keepdims_mid_apply (k0_pay7 (F := Ideal) v22 v36 v37) shapeCasts_S16x512_S16x1x512 broadcasts_S16x1x512_S16x64x512 r s k
  rw [e1, e2, e3, pay9_apply]

/-- A blend by a mask entry that is one or zero: the new value where it is one, the old where it is zero. -/
theorem blend_ite (old new : EReal) (p : Prop) [Decidable p] :
    old * (1 - (if p then (1 : EReal) else 0)) + (if p then (1 : EReal) else 0) * new = if p then new else old := by
  by_cases hp : p
  · simp only [if_pos hp]
    have e : (1 : EReal) - 1 = 0 := by
      rw [← EReal.coe_one, ← EReal.coe_sub, sub_self, EReal.coe_zero]
    rw [e, mul_zero, zero_add, one_mul]
  · simp only [if_neg hp]
    rw [sub_zero, mul_one, zero_mul, add_zero]

end Cert.KernelIdeal.BodyRead

end
-- ==== Proof.KernelTile.lean ====
/-
  One tile of the kernel against the specification.

  A grid point works on 16 batch rows. Given its input blocks as restrictions of the argument arrays (row `r` of the tile
  is batch row `ρ r`; the weight blocks are the weight matrices transposed; the bias blocks are the biases as rows), and
  every position in `[0, 64)`, the body's four stored values are the specification's functions at batch row `ρ r`:
  the first mask selects the top rows, the pre-activations are the specification's gate sums, the cell and hidden
  updates are the specification's, and the blend by the second mask is the specification's `push`.
-/
import proofs.«407907_j63728724738173_1_alg».proof.Proof.KernelPay

noncomputable section

namespace Cert.KernelIdeal.Tile

open Idealize.ShloMosaic Idealize.ShloMosaic.ValueIdx Cert.KernelIdeal Cert.KernelIdeal.Gen Cert.KernelIdeal.BodyRead Cert.StackCell

variable (X : SX.Idx → EReal) (Hs Cs : SS.Idx → EReal) (P : SP.Idx → BitVec 32) (Wi Wh : SW.Idx → EReal) (bi bh : SB.Idx → EReal)
variable (ρ : Fin 16 → Fin 4096)
variable (P0 : Vec Ideal S16x1 .i32) (P1 P7 : FVec Ideal S16x64x512 .f32) (P2 : FVec Ideal S16x512 .bf16)
  (P3 P4 : FVec Ideal S512x2048 .bf16) (P5 P6 : FVec Ideal S1x2048 .f32)

/-- The tile's input blocks are the argument arrays restricted to the tile's rows. -/
structure TileOf : Prop where
  pos : ∀ r : Fin 16, P0 (ix2 r (0 : Fin 1)) = P (ix1 (ρ r))
  hid : ∀ (r : Fin 16) (s : Fin 64) (k : Fin 512), P1 (ix3 r s k) = Hs (ix3 (ρ r) s k)
  cel : ∀ (r : Fin 16) (s : Fin 64) (k : Fin 512), P7 (ix3 r s k) = Cs (ix3 (ρ r) s k)
  inp : ∀ (r : Fin 16) (k : Fin 512), P2 (ix2 r k) = X (ix2 (ρ r) k)
  wi : ∀ (k : Fin 512) (j : Fin 2048), P3 (ix2 k j) = Wi (ix2 j k)
  wh : ∀ (k : Fin 512) (j : Fin 2048), P4 (ix2 k j) = Wh (ix2 j k)
  b1 : ∀ j : Fin 2048, P5 (ix2 (0 : Fin 1) j) = bi (ix1 j)
  b2 : ∀ j : Fin 2048, P6 (ix2 (0 : Fin 1) j) = bh (ix1 j)

variable {X Hs Cs P Wi Wh bi bh ρ P0 P1 P7 P2 P3 P4 P5 P6}

/-- A word in `[0, 64)` (read signed) is the word of its top slot. -/
theorem word_eq_top (hp : ∀ b : Fin 4096, 0 ≤ (P (ix1 b)).toInt ∧ (P (ix1 b)).toInt < 64) (b : Fin 4096) :
    P (ix1 b) = BitVec.ofNat 32 (top P b).val := by
  have h := top_val P b (hp b).1 (hp b).2
  apply BitVec.eq_of_toInt_eq
  rw [← h]
  have hlt : (top P b).val < 64 := (top P b).isLt
  have hc := BitVec.toInt_eq_toNat_cond (BitVec.ofNat 32 (top P b).val)
  rw [BitVec.toNat_ofNat, Nat.mod_eq_of_lt (by omega : (top P b).val < 2 ^ 32)] at hc
  split_ifs at hc <;> omega

/-- The tile's position words are the words of the top slots. -/
theorem tile_pos (hp : ∀ b : Fin 4096, 0 ≤ (P (ix1 b)).toInt ∧ (P (ix1 b)).toInt < 64)
    (h : TileOf X Hs Cs P Wi Wh bi bh ρ P0 P1 P7 P2 P3 P4 P5 P6) (r : Fin 16) :
    P0 (ix2 r (0 : Fin 1)) = BitVec.ofNat 32 (top P (ρ r)).val := by
  rw [h.pos r]; exact word_eq_top hp (ρ r)

/-- The pre-activations of tile row `r` are the specification's gate sums at batch row `ρ r`. -/
theorem tile_gate (hp : ∀ b : Fin 4096, 0 ≤ (P (ix1 b)).toInt ∧ (P (ix1 b)).toInt < 64)
    (h : TileOf X Hs Cs P Wi Wh bi bh ρ P0 P1 P7 P2 P3 P4 P5 P6) (r : Fin 16) (j : Fin 2048) :
    k0_pay6 (F := Ideal) (k0_pay5 (F := Ideal) P0 P1 P2 P3 P4 P5) P6 (ix2 r j) = gate X Hs P Wi Wh bi bh (ρ r) j := by
  rw [pay6_apply, pay5_apply P0 P1 P2 P3 P4 P5 r j (top P (ρ r)) (tile_pos hp h r), h.b1 j, h.b2 j]
  unfold gate topRow
  congr 1; congr 1; congr 1
  · exact Finset.sum_congr rfl fun k _ => by rw [h.inp r k, h.wi k j]
  · exact Finset.sum_congr rfl fun k _ => by rw [h.hid r (top P (ρ r)) k, h.wh k j]

/-- The masked sum of the cell block is the top cell row. -/
theorem tile_topC (hp : ∀ b : Fin 4096, 0 ≤ (P (ix1 b)).toInt ∧ (P (ix1 b)).toInt < 64)
    (h : TileOf X Hs Cs P Wi Wh bi bh ρ P0 P1 P7 P2 P3 P4 P5 P6) (r : Fin 16) (k : Fin 512) :
    k0_pay4 (F := Ideal) P0 P7 (ix2 r k) = topRow Cs P (ρ r) k := by
  unfold k0_pay4
  refine (top_row P0 P7 r k (top P (ρ r)) (tile_pos hp h r)).trans ?_
  rw [h.cel r (top P (ρ r)) k]; rfl

/-- The new cell row of tile row `r`. -/
theorem tile_cnew (hp : ∀ b : Fin 4096, 0 ≤ (P (ix1 b)).toInt ∧ (P (ix1 b)).toInt < 64)
    (h : TileOf X Hs Cs P Wi Wh bi bh ρ P0 P1 P7 P2 P3 P4 P5 P6) (r : Fin 16) (k : Fin 512) :
    k0_pay7 (F := Ideal) (k0_pay4 (F := Ideal) P0 P7) (k0_pay5 (F := Ideal) P0 P1 P2 P3 P4 P5) P6 (ix2 r k)
      = cNew X Hs Cs P Wi Wh bi bh (ρ r) k := by
  rw [pay7_apply, tile_gate hp h, tile_gate hp h, tile_gate hp h, tile_topC hp h]
  rfl

/-- The new hidden row of tile row `r`. -/
theorem tile_hnew (hp : ∀ b : Fin 4096, 0 ≤ (P (ix1 b)).toInt ∧ (P (ix1 b)).toInt < 64)
    (h : TileOf X Hs Cs P Wi Wh bi bh ρ P0 P1 P7 P2 P3 P4 P5 P6) (r : Fin 16) (k : Fin 512) :
    k0_pay8 (F := Ideal) (k0_pay4 (F := Ideal) P0 P7) (k0_pay5 (F := Ideal) P0 P1 P2 P3 P4 P5) P6 (ix2 r k)
      = hNew X Hs Cs P Wi Wh bi bh (ρ r) k := by
  rw [pay8_apply, tile_gate hp h, tile_cnew hp h]
  rfl

/-- The second mask marks the slot above the top slot. -/
theorem tile_mask_next (hp : ∀ b : Fin 4096, 0 ≤ (P (ix1 b)).toInt ∧ (P (ix1 b)).toInt < 64)
    (h : TileOf X Hs Cs P Wi Wh bi bh ρ P0 P1 P7 P2 P3 P4 P5 P6) (r : Fin 16) (s : Fin 64) :
    k0_pay3 (F := Ideal) P0 (ix2 r s) = if s.val = (top P (ρ r)).val + 1 then (1 : EReal) else 0 := by
  rw [mask_next, tile_pos hp h r]
  have hs : s.val < 64 := s.isLt
  have ht : (top P (ρ r)).val < 64 := (top P (ρ r)).isLt
  refine if_congr ?_ rfl rfl
  constructor
  · intro e
    have e' := congrArg BitVec.toNat e
    rw [BitVec.toNat_add, BitVec.toNat_ofNat, BitVec.toNat_ofNat] at e'
    simp only [BitVec.toNat_ofNat] at e'
    omega
  · intro e
    apply BitVec.eq_of_toNat_eq
    rw [BitVec.toNat_add, BitVec.toNat_ofNat, BitVec.toNat_ofNat]
    simp only [BitVec.toNat_ofNat]
    omega

/-- The blended hidden block is the specification's pushed hidden stack on the tile's rows. -/
theorem tile_pushH (hp : ∀ b : Fin 4096, 0 ≤ (P (ix1 b)).toInt ∧ (P (ix1 b)).toInt < 64)
    (h : TileOf X Hs Cs P Wi Wh bi bh ρ P0 P1 P7 P2 P3 P4 P5 P6) (r : Fin 16) (s : Fin 64) (k : Fin 512) :
    k0_pay10 (F := Ideal) (k0_pay3 (F := Ideal) P0) (k0_pay4 (F := Ideal) P0 P7) (k0_pay5 (F := Ideal) P0 P1 P2 P3 P4 P5) P6 P1 (ix3 r s k)
      = push Hs P (hNew X Hs Cs P Wi Wh bi bh) (ρ r) s k := by
  rw [pay10_apply, tile_mask_next hp h, blend_ite, tile_hnew hp h, h.hid r s k]
  rfl

/-- The blended cell block is the specification's pushed cell stack on the tile's rows. -/
theorem tile_pushC (hp : ∀ b : Fin 4096, 0 ≤ (P (ix1 b)).toInt ∧ (P (ix1 b)).toInt < 64)
    (h : TileOf X Hs Cs P Wi Wh bi bh ρ P0 P1 P7 P2 P3 P4 P5 P6) (r : Fin 16) (s : Fin 64) (k : Fin 512) :
    k0_pay11 (F := Ideal) (k0_pay3 (F := Ideal) P0) (k0_pay4 (F := Ideal) P0 P7) (k0_pay5 (F := Ideal) P0 P1 P2 P3 P4 P5) P6 P7 (ix3 r s k)
      = push Cs P (cNew X Hs Cs P Wi Wh bi bh) (ρ r) s k := by
  rw [pay11_apply, tile_mask_next hp h, blend_ite, tile_cnew hp h, h.cel r s k]
  rfl

end Cert.KernelIdeal.Tile

end
-- ==== Proof.KernelFinal.lean ====
/-
  The kernel's four result arrays after the run, as the specification's functions of the argument arrays.

  Grid point `t` writes back, to each output array, the block of rows `16 t … 16 t + 15`; what it writes is the body's stored
  value for that window, which on the tile's rows is the specification (the tile lemmas). The 256 blocks tile each array
  (row `i` lies in block `i / 16`), so each array ends holding the specification's function everywhere.
-/
import proofs.«407907_j63728724738173_1_alg».proof.Proof.KernelIdealValue
import proofs.«407907_j63728724738173_1_alg».proof.Proof.KernelBlocks
import proofs.«407907_j63728724738173_1_alg».proof.Proof.KernelTile

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Tile Cert.StackCell

variable (m : (ℓ : Loc nD τ sig) → Buf (Elt Ideal) ℓ) (ρ : Dev nD → PrngReg)

/-- Every position of device `c`'s positions argument is a stack slot. -/
def PosOk (c : Dev nD) : Prop := ∀ b : Fin 4096, 0 ≤ (aP m c (ix1 b)).toInt ∧ (aP m c (ix1 b)).toInt < 64

theorem hz2 : (![0, 0] : Fin 2 → Nat) = fun _ => 0 := funext fun a => by fin_cases a <;> rfl
theorem hz3 : (![0, 0, 0] : Fin 3 → Nat) = fun _ => 0 := funext fun a => by fin_cases a <;> rfl

/-- Grid point `t`'s input blocks are the argument arrays on rows `16 t … 16 t + 15`. -/
theorem tileOf (c : Dev nD) (t : Fin cfg0.N) :
    TileOf (aX m c) (aH m c) (aC m c) (aP m c) (aWi m c) (aWh m c) (abi m c) (abh m c) (row t)
      (iblk m c 3 t) (iblk m c 1 t) (iblk m c 2 t) (iblk m c 0 t) (iblk m c 4 t) (iblk m c 5 t) (iblk m c 6 t) (iblk m c 7 t) :=
  ⟨iblk3_apply m c t, iblk1_apply m c t, iblk2_apply m c t, iblk0_apply m c t, iblk4_apply m c t, iblk5_apply m c t,
    iblk6_apply m c t, iblk7_apply m c t⟩

/-- The output windows' index maps, decided over the 256 grid points. -/
theorem idx_outs : ∀ t : Fin cfg0.N,
    win0_8.index t (0 : Fin 2) = t.val ∧ win0_8.index t (1 : Fin 2) = 0
    ∧ win0_9.index t (0 : Fin 2) = t.val ∧ win0_9.index t (1 : Fin 2) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-! ## The new hidden rows (output window 8) -/

/-- What grid point `t` writes back is block `t` of the specification's new hidden rows. -/
theorem flushed8_eq (c : Dev nD) (hp : PosOk m c) (t : Fin cfg0.N) :
    (dats m 0 c).flushed 8 t = ((cfg0.win 8).blk t).view.read (Elt Ideal)
      (outH (aX m c) (aH m c) (aC m c) (aP m c) (aWi m c) (aWh m c) (abi m c) (abh m c)) := by
  rw [ValueP.flushed8]
  unfold out0_8
  rw [View.canon_unit_zero hz2]
  simp only [View.ld_unit_zero (S := S16x1) hz2, View.ld_unit_zero (S := S16x512) hz2, View.ld_unit_zero (S := S16x64x512) hz3,
    View.ld_unit_zero (S := S512x2048) hz2, View.ld_unit_zero (S := S1x2048) hz2]
  obtain ⟨e0, e1, -⟩ := idx_outs t
  funext y
  obtain ⟨r, k, rfl⟩ : ∃ (r : Fin 16) (k : Fin 512), y = ix2 r k := ⟨y 0, y 1, eq_ix2 y⟩
  show k0_pay8 (F := Ideal) (k0_pay4 (F := Ideal) (iblk m c 3 t) (iblk m c 2 t))
      (k0_pay5 (F := Ideal) (iblk m c 3 t) (iblk m c 1 t) (iblk m c 0 t) (iblk m c 4 t) (iblk m c 5 t) (iblk m c 6 t)) (iblk m c 7 t) (ix2 r k)
    = outH (aX m c) (aH m c) (aC m c) (aP m c) (aWi m c) (aWh m c) (abi m c) (abh m c) (((cfg0.win 8).blk t).view.emb (ix2 r k))
  refine (tile_hnew hp (tileOf m c t) r k).trans ?_
  unfold outH
  congr 1
  · exact Fin.ext (by show 16 * t.val + r.val = win0_8.index t (0 : Fin 2) * 16 + 1 * r.val; omega)
  · exact Fin.ext (by show k.val = win0_8.index t (1 : Fin 2) * 512 + 1 * k.val; omega)

/-- An index of the array is in point `t`'s block iff each coordinate is in the block's range on its axis. -/
theorem mem_blk8 (t : Fin cfg0.N) (i : S4096x512.Idx) :
    i ∈ ((cfg0.win 8).blk t).view.set ↔ ∀ a : Fin 2, win0_8.index t a * S16x512.size a ≤ (i a).val ∧ (i a).val < win0_8.index t a * S16x512.size a + S16x512.size a := by
  show i ∈ ((View.whole main_v8_0).slice (win0_8.rect t)).set ↔ _
  rw [View.set_slice_whole, Rect.mem_set_unit]
  exact Iff.rfl

/-- Every row of the array lies in some grid point's block. -/
theorem cover8 (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  let t : Fin cfg0.N := ⟨(i 0).val / 16, by show (i 0).val / 16 < 256; omega⟩
  obtain ⟨e0, e1, -⟩ := idx_outs t
  have ht : t.val = (i 0).val / 16 := rfl
  refine ⟨t, flush0_8 t, ?_⟩
  rw [mem_blk8]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 512 ≤ (i 1).val ∧ (i 1).val < win0_8.index t (1 : Fin 2) * 512 + 512; omega

/-- The array of new hidden rows after the run. -/
theorem final8 (c : Dev nD) (hp : PosOk m c) :
    (dats m 0 c).arrAt 8 cfg0.N = outH (aX m c) (aH m c) (aC m c) (aP m c) (aWi m c) (aWh m c) (abi m c) (abh m c) :=
  (dats m 0 c).arrAt_eq_of_cover 8 _ (fun t _ => flushed8_eq m c hp t) cover8

/-! ## The new cell rows (output window 9) -/

/-- What grid point `t` writes back is block `t` of the specification's new cell rows. -/
theorem flushed9_eq (c : Dev nD) (hp : PosOk m c) (t : Fin cfg0.N) :
    (dats m 0 c).flushed 9 t = ((cfg0.win 9).blk t).view.read (Elt Ideal)
      (outC (aX m c) (aH m c) (aC m c) (aP m c) (aWi m c) (aWh m c) (abi m c) (abh m c)) := by
  rw [ValueP.flushed9]
  unfold out0_9
  rw [View.canon_unit_zero hz2]
  simp only [View.ld_unit_zero (S := S16x1) hz2, View.ld_unit_zero (S := S16x512) hz2, View.ld_unit_zero (S := S16x64x512) hz3,
    View.ld_unit_zero (S := S512x2048) hz2, View.ld_unit_zero (S := S1x2048) hz2]
  obtain ⟨-, -, e0, e1, -⟩ := idx_outs t
  funext y
  obtain ⟨r, k, rfl⟩ : ∃ (r : Fin 16) (k : Fin 512), y = ix2 r k := ⟨y 0, y 1, eq_ix2 y⟩
  show k0_pay7 (F := Ideal) (k0_pay4 (F := Ideal) (iblk m c 3 t) (iblk m c 2 t))
      (k0_pay5 (F := Ideal) (iblk m c 3 t) (iblk m c 1 t) (iblk m c 0 t) (iblk m c 4 t) (iblk m c 5 t) (iblk m c 6 t)) (iblk m c 7 t) (ix2 r k)
    = outC (aX m c) (aH m c) (aC m c) (aP m c) (aWi m c) (aWh m c) (abi m c) (abh m c) (((cfg0.win 9).blk t).view.emb (ix2 r k))
  refine (tile_cnew hp (tileOf m c t) r k).trans ?_
  unfold outC
  congr 1
  · exact Fin.ext (by show 16 * t.val + r.val = win0_9.index t (0 : Fin 2) * 16 + 1 * r.val; omega)
  · exact Fin.ext (by show k.val = win0_9.index t (1 : Fin 2) * 512 + 1 * k.val; omega)

theorem mem_blk9 (t : Fin cfg0.N) (i : S4096x512.Idx) :
    i ∈ ((cfg0.win 9).blk t).view.set ↔ ∀ a : Fin 2, win0_9.index t a * S16x512.size a ≤ (i a).val ∧ (i a).val < win0_9.index t a * S16x512.size a + S16x512.size a := by
  show i ∈ ((View.whole main_v8_1).slice (win0_9.rect t)).set ↔ _
  rw [View.set_slice_whole, Rect.mem_set_unit]
  exact Iff.rfl

theorem cover9 (i : S4096x512.Idx) : ∃ t : Fin cfg0.N, (cfg0.win 9).flush t = true ∧ i ∈ ((cfg0.win 9).blk t).view.set := by
  have hi0 : (i 0).val < 4096 := (i 0).isLt
  have hi1 : (i 1).val < 512 := (i 1).isLt
  let t : Fin cfg0.N := ⟨(i 0).val / 16, by show (i 0).val / 16 < 256; omega⟩
  obtain ⟨-, -, e0, e1, -⟩ := idx_outs t
  have ht : t.val = (i 0).val / 16 := rfl
  refine ⟨t, flush0_9 t, ?_⟩
  rw [mem_blk9]
  intro a
  match a with
  | ⟨0, _⟩ => show win0_9.index t (0 : Fin 2) * 16 ≤ (i 0).val ∧ (i 0).val < win0_9.index t (0 : Fin 2) * 16 + 16; omega
  | ⟨1, _⟩ => show win0_9.index t (1 : Fin 2) * 512 ≤ (i 1).val ∧ (i 1).val < win0_9.index t (1 : Fin 2) * 512 + 512; omega

/-- The array of new cell rows after the run. -/
theorem final9 (c : Dev nD) (hp : PosOk m c) :
    (dats m 0 c).arrAt 9 cfg0.N = outC (aX m c) (aH m c) (aC m c) (aP m c) (aWi m c) (aWh m c) (abi m c) (abh m c) :=
  (dats m 0 c).arrAt_eq_of_cover 9 _ (fun t _ => flushed9_eq m c hp t) cover9

/-! ## The new hidden stack (output window 10) -/

/-- What grid point `t` writes back is block `t` of the specification's new hidden stack. -/
theorem flushed10_eq (c : Dev nD) (hp : PosOk m c) (t : Fin cfg0.N) :
    (dats m 0 c).flushed 10 t = ((cfg0.win 10).blk t).view.read (Elt Ideal)
      (outHs (aX m c) (aH m c) (aC m c) (aP m c) (aWi m c) (aWh m c) (abi m c) (abh m c)) := by
  rw [ValueP.flushed10]
  unfold out0_10
  rw [View.canon_unit_zero hz3]
  simp only [View.ld_unit_zero (S := S16x1) hz2, View.ld_unit_zero (S := S16x512) hz2, View.ld_unit_zero (S := S16x64x512) hz3,
    View.ld_unit_zero (S := S512x2048) hz2, View.ld_unit_zero (S := S1x2048) hz2]
  obtain ⟨-, -, -, -, e0, e1, e2, -⟩ := idx_outs t
  funext y
  obtain ⟨r, s, k, rfl⟩ : ∃ (r : Fin 16) (s : Fin 64) (k : Fin 512), y = ix3 r s k := ⟨y 0, y 1, y 2, eq_ix3 y⟩
  show k0_pay10 (F := Ideal) (k0_pay3 (F := Ideal) (iblk m c 3 t)) (k0_pay4 (F := Ideal) (iblk m c 3 t) (iblk m c 2 t))
      (k0_pay5 (F := Ideal) (iblk m c 3 t) (iblk m c 1 t) (iblk m c 0 t) (iblk m c 4 t) (iblk m c 5 t) (iblk m c 6 t)) (iblk m c 7 t) (iblk m c 1 t) (ix3 r s k)
    = outHs (aX m c) (aH m c) (aC m c) (aP m c) (aWi m c) (aWh m c) (abi m c) (abh m c) (((cfg0.win 10).blk t).view.emb (ix3 r s k))
  refine (tile_pushH hp (tileOf m c t) r s k).trans ?_
  unfold outHs
  congr 1
  · exact Fin.ext (by show 16 * t.val + r.val = win0_10.index t (0 : Fin 3) * 16 + 1 * r.val; omega)
  · exact Fin.ext (by show s.val = win0_10.index t (1 : Fin 3) * 64 + 1 * s.val; omega)
  · exact Fin.ext (by show k.val = win0_10.index t (2 : Fin 3) * 512 + 1 * k.val; omega)

theorem mem_blk10 (t : Fin cfg0.N) (i : S4096x64x512.Idx) :
    i ∈ ((cfg0.win 10).blk t).view.set ↔ ∀ a : Fin 3, win0_10.index t a * S16x64x512.size a ≤ (i a).val ∧ (i a).val < win0_10.index t a * S16x64x512.size a + S16x64x512.size a := by
  show i ∈ ((View.whole main_v8_2).slice (win0_10.rect t)).set ↔ _
  rw [View.set_slice_whole, Rect.mem_set_unit]
  exact Iff.rfl

theorem cover10 (i : S4096x64x512.Idx) : ∃ t : Fin cfg0.N, (cfg0.win 10).flush t = true ∧ i ∈ ((cfg0.win 10).blk t).view.set := by
  have hi0 : (i 0).val < 4096 := (i 0).isLt
  have hi1 : (i 1).val < 64 := (i 1).isLt
  have hi2 : (i 2).val < 512 := (i 2).isLt
  let t : Fin cfg0.N := ⟨(i 0).val / 16, by show (i 0).val / 16 < 256; omega⟩
  obtain ⟨-, -, -, -, e0, e1, e2, -⟩ := idx_outs t
  have ht : t.val = (i 0).val / 16 := rfl
  refine ⟨t, flush0_10 t, ?_⟩
  rw [mem_blk10]
  intro a
  match a with
  | ⟨0, _⟩ => show win0_10.index t (0 : Fin 3) * 16 ≤ (i 0).val ∧ (i 0).val < win0_10.index t (0 : Fin 3) * 16 + 16; omega
  | ⟨1, _⟩ => show win0_10.index t (1 : Fin 3) * 64 ≤ (i 1).val ∧ (i 1).val < win0_10.index t (1 : Fin 3) * 64 + 64; omega
  | ⟨2, _⟩ => show win0_10.index t (2 : Fin 3) * 512 ≤ (i 2).val ∧ (i 2).val < win0_10.index t (2 : Fin 3) * 512 + 512; omega

/-- The array after the run. -/
theorem final10 (c : Dev nD) (hp : PosOk m c) :
    (dats m 0 c).arrAt 10 cfg0.N = outHs (aX m c) (aH m c) (aC m c) (aP m c) (aWi m c) (aWh m c) (abi m c) (abh m c) :=
  (dats m 0 c).arrAt_eq_of_cover 10 _ (fun t _ => flushed10_eq m c hp t) cover10

/-! ## The new cell stack (output window 11) -/

/-- What grid point `t` writes back is block `t` of the specification's new cell stack. -/
theorem flushed11_eq (c : Dev nD) (hp : PosOk m c) (t : Fin cfg0.N) :
    (dats m 0 c).flushed 11 t = ((cfg0.win 11).blk t).view.read (Elt Ideal)
      (outCs (aX m c) (aH m c) (aC m c) (aP m c) (aWi m c) (aWh m c) (abi m c) (abh m c)) := by
  rw [ValueP.flushed11]
  unfold out0_11
  rw [View.canon_unit_zero hz3]
  simp only [View.ld_unit_zero (S := S16x1) hz2, View.ld_unit_zero (S := S16x512) hz2, View.ld_unit_zero (S := S16x64x512) hz3,
    View.ld_unit_zero (S := S512x2048) hz2, View.ld_unit_zero (S := S1x2048) hz2]
  obtain ⟨-, -, -, -, -, -, -, e0, e1, e2⟩ := idx_outs t
  funext y
  obtain ⟨r, s, k, rfl⟩ : ∃ (r : Fin 16) (s : Fin 64) (k : Fin 512), y = ix3 r s k := ⟨y 0, y 1, y 2, eq_ix3 y⟩
  show k0_pay11 (F := Ideal) (k0_pay3 (F := Ideal) (iblk m c 3 t)) (k0_pay4 (F := Ideal) (iblk m c 3 t) (iblk m c 2 t))
      (k0_pay5 (F := Ideal) (iblk m c 3 t) (iblk m c 1 t) (iblk m c 0 t) (iblk m c 4 t) (iblk m c 5 t) (iblk m c 6 t)) (iblk m c 7 t) (iblk m c 2 t) (ix3 r s k)
    = outCs (aX m c) (aH m c) (aC m c) (aP m c) (aWi m c) (aWh m c) (abi m c) (abh m c) (((cfg0.win 11).blk t).view.emb (ix3 r s k))
  refine (tile_pushC hp (tileOf m c t) r s k).trans ?_
  unfold outCs
  congr 1
  · exact Fin.ext (by show 16 * t.val + r.val = win0_11.index t (0 : Fin 3) * 16 + 1 * r.val; omega)
  · exact Fin.ext (by show s.val = win0_11.index t (1 : Fin 3) * 64 + 1 * s.val; omega)
  · exact Fin.ext (by show k.val = win0_11.index t (2 : Fin 3) * 512 + 1 * k.val; omega)

theorem mem_blk11 (t : Fin cfg0.N) (i : S4096x64x512.Idx) :
    i ∈ ((cfg0.win 11).blk t).view.set ↔ ∀ a : Fin 3, win0_11.index t a * S16x64x512.size a ≤ (i a).val ∧ (i a).val < win0_11.index t a * S16x64x512.size a + S16x64x512.size a := by
  show i ∈ ((View.whole main_v8_3).slice (win0_11.rect t)).set ↔ _
  rw [View.set_slice_whole, Rect.mem_set_unit]
  exact Iff.rfl

theorem cover11 (i : S4096x64x512.Idx) : ∃ t : Fin cfg0.N, (cfg0.win 11).flush t = true ∧ i ∈ ((cfg0.win 11).blk t).view.set := by
  have hi0 : (i 0).val < 4096 := (i 0).isLt
  have hi1 : (i 1).val < 64 := (i 1).isLt
  have hi2 : (i 2).val < 512 := (i 2).isLt
  let t : Fin cfg0.N := ⟨(i 0).val / 16, by show (i 0).val / 16 < 256; omega⟩
  obtain ⟨-, -, -, -, -, -, -, e0, e1, e2⟩ := idx_outs t
  have ht : t.val = (i 0).val / 16 := rfl
  refine ⟨t, flush0_11 t, ?_⟩
  rw [mem_blk11]
  intro a
  match a with
  | ⟨0, _⟩ => show win0_11.index t (0 : Fin 3) * 16 ≤ (i 0).val ∧ (i 0).val < win0_11.index t (0 : Fin 3) * 16 + 16; omega
  | ⟨1, _⟩ => show win0_11.index t (1 : Fin 3) * 64 ≤ (i 1).val ∧ (i 1).val < win0_11.index t (1 : Fin 3) * 64 + 64; omega
  | ⟨2, _⟩ => show win0_11.index t (2 : Fin 3) * 512 ≤ (i 2).val ∧ (i 2).val < win0_11.index t (2 : Fin 3) * 512 + 512; omega

/-- The array after the run. -/
theorem final11 (c : Dev nD) (hp : PosOk m c) :
    (dats m 0 c).arrAt 11 cfg0.N = outCs (aX m c) (aH m c) (aC m c) (aP m c) (aWi m c) (aWh m c) (abi m c) (abh m c) :=
  (dats m 0 c).arrAt_eq_of_cover 11 _ (fun t _ => flushed11_eq m c hp t) cover11

/-! ## The run, read -/

/-- The kernel's run with each result array at the specification's function of the argument arrays, the arguments unchanged. -/
theorem run (hp : ∀ c : Dev nD, PosOk m c) :
    θ_run defs (onTc (τ := τ) (main (F := Ideal))) ⟨m, fun _ => 0, ρ⟩ fun r => ∀ c : Dev nD,
      r.2.mem ((c : Thread nD τ).loc main_v8_0) = outH (aX m c) (aH m c) (aC m c) (aP m c) (aWi m c) (aWh m c) (abi m c) (abh m c)
      ∧ r.2.mem ((c : Thread nD τ).loc main_v8_1) = outC (aX m c) (aH m c) (aC m c) (aP m c) (aWi m c) (aWh m c) (abi m c) (abh m c)
      ∧ r.2.mem ((c : Thread nD τ).loc main_v8_2) = outHs (aX m c) (aH m c) (aC m c) (aP m c) (aWi m c) (aWh m c) (abi m c) (abh m c)
      ∧ r.2.mem ((c : Thread nD τ).loc main_v8_3) = outCs (aX m c) (aH m c) (aC m c) (aP m c) (aWi m c) (aWh m c) (abi m c) (abh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c (hp c)), (h c).2.1.trans (final9 m c (hp c)),
      (h c).2.2.1.trans (final10 m c (hp c)), (h c).2.2.2.1.trans (final11 m c (hp c)), (h c).2.2.2.2⟩)
    (ValueP.run_blocks m ρ)

end Cert.KernelIdeal.Final

end
-- ==== Proof.LibStackIndex.lean ====
/-
  Reading a two-coordinate row gather and a two-coordinate row SET-scatter at an index.

  The operand is a stack of rows, `[B, S, K]`; the index array `[B, 2]` names, for each of the `B` index rows, a
  (batch, slot) pair; a gather returns the `K`-row at that pair, a scatter overwrites the `K`-row at that pair with the
  update's row (this is what `x[arange(B), p]` and `x.at[arange(B), p].set(v)` lower to).
  * The gather reads both components signed and clamps each into its axis.
  * The scatter reads both components signed, does NOT clamp, and drops an update whose pair is outside the operand;
    the fold over the updates leaves at an operand index the LAST update that lands there, the operand's own entry
    where none does. When component 0 of index row `b` is `b` itself, at most one update row lands on any operand row,
    so the result at `(b, s, k)` is the update's `(b, k)` when the slot component of row `b` is `s`, else the operand's.
-/
import Idealize.ShloMosaic.PureOps.ShapeOps
import Idealize.ShloMosaic.Lib.ValueIdx

namespace Idealize.ShloMosaic.StackIndex

open Idealize.ShloMosaic Idealize.ShloMosaic.ValueIdx

/-! ## A set-scatter's fold, one operand index at a time -/

section Fold
variable {ι κ α : Type} [DecidableEq ι]

/-- One step of a set-scatter's fold: update `n` overwrites the entry it lands on, if it lands. -/
def setStep (ridx : κ → Option ι) (upd : κ → α) (r : ι → α) (n : κ) : ι → α :=
  match ridx n with
  | some i0 => fun i' => if i' = i0 then upd n else r i'
  | none => r

/-- No update of the list lands on `i`: the fold leaves the operand's entry. -/
theorem foldl_setStep_miss (ridx : κ → Option ι) (upd : κ → α) (i : ι) :
    ∀ (L : List κ) (x : ι → α), (∀ n ∈ L, ridx n ≠ some i) → (L.foldl (setStep ridx upd) x) i = x i := by
  intro L
  induction L with
  | nil => intro x _; rfl
  | cons n L ih =>
    intro x h
    rw [List.foldl_cons, ih _ (fun m hm => h m (List.mem_cons_of_mem _ hm))]
    have hn := h n (List.mem_cons_self ..)
    unfold setStep
    cases hr : ridx n with
    | none => rfl
    | some i0 =>
      show (if i = i0 then upd n else x i) = x i
      rw [if_neg]
      intro hi
      exact hn (by rw [hr, hi])

/-- Some update of the list lands on `i`, and all that do carry the value `v`: the fold leaves `v`. -/
theorem foldl_setStep_hit (ridx : κ → Option ι) (upd : κ → α) (i : ι) (v : α) :
    ∀ (L : List κ) (x : ι → α), (∃ n ∈ L, ridx n = some i) → (∀ n ∈ L, ridx n = some i → upd n = v) →
      (L.foldl (setStep ridx upd) x) i = v := by
  intro L
  induction L with
  | nil => intro x hex; obtain ⟨n, hn, _⟩ := hex; cases hn
  | cons n L ih =>
    intro x hex hall
    rw [List.foldl_cons]
    by_cases hlater : ∃ m ∈ L, ridx m = some i
    · exact ih _ hlater (fun m hm => hall m (List.mem_cons_of_mem _ hm))
    · have hmiss : ∀ m ∈ L, ridx m ≠ some i := fun m hm h => hlater ⟨m, hm, h⟩
      rw [foldl_setStep_miss ridx upd i L _ hmiss]
      obtain ⟨m, hm, hmi⟩ := hex
      rcases List.mem_cons.1 hm with rfl | hm'
      · have hv := hall m (List.mem_cons_self ..) hmi
        unfold setStep
        rw [hmi]
        show (if i = i then upd m else x i) = v
        rw [if_pos rfl]
        exact hv
      · exact absurd hmi (hmiss m hm')

end Fold

section Scatter
variable {α : Type} {s si u : Shape} {w : Nat}

/-- A set-scatter is the fold of `setStep` over the update positions in row-major order. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  dsimp only
  cases d.resultIdx? (u.rowMajor.symm n) idx with
  | none => rfl
  | some i0 => rfl

/-- No update lands on `i`: a set-scatter leaves the operand's entry there. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_set_eq_foldl]
  exact foldl_setStep_miss _ _ i _ x (fun n _ => h (u.rowMajor.symm n))

/-- Exactly the update index `j0` lands on `i`: a set-scatter leaves that update's value there. -/
theorem scatter_set_hit (d : ScatterDims s si u) (x : s.Idx → α) (idx : IVec si w) (upd : u.Idx → α) (i : s.Idx)
    (j0 : u.Idx) (h0 : d.resultIdx? j0 idx = some i) (huniq : ∀ j : u.Idx, d.resultIdx? j idx = some i → j = j0) :
    Host.scatter d (fun _ b => b) x idx upd i = upd j0 := by
  rw [scatter_set_eq_foldl]
  refine foldl_setStep_hit _ _ i (upd j0) _ x ⟨u.rowMajor j0, List.mem_finRange _, ?_⟩ ?_
  · show d.resultIdx? (u.rowMajor.symm (u.rowMajor j0)) idx = some i
    rw [Equiv.symm_apply_apply]; exact h0
  · intro n _ hn
    show upd (u.rowMajor.symm n) = upd j0
    rw [huniq _ hn]

end Scatter

/-! ## The two-coordinate row gather -/

/-- The dimension numbers of `x[arange(B), p]` over `x : [B, S, K]`: start indices `[B, 2]` (index vector on axis 1),
    both indexed axes collapsed, the row axis kept as the result's axis 1. -/
abbrev stackGatherDims (B S K : Nat)
    (wf : GatherDims.WF ⟨3, ![B, S, K]⟩ ⟨2, ![B, 2]⟩ ⟨2, ![B, K]⟩ [1] [0, 1] [] [0, 1] [] 1 ![1, 1, K]) :
    GatherDims ⟨3, ![B, S, K]⟩ ⟨2, ![B, 2]⟩ ⟨2, ![B, K]⟩ where
  offsetDims := [1]
  collapsedSliceDims := [0, 1]
  operandBatchingDims := []
  startIndicesBatchingDims := []
  startIndexMap := [0, 1]
  indexVectorDim := 1
  sliceSizes := ![1, 1, K]
  wf := wf

/-- THE GATHER READ AT `(b, k)`: the operand's row at the pair index row `b` names, each component read signed and
    clamped into its axis, at column `k`. -/
theorem gather_stack_apply {α : Type} {B S K w : Nat} (hB : 0 < B) (hS : 0 < S)
    (wf : GatherDims.WF ⟨3, ![B, S, K]⟩ ⟨2, ![B, 2]⟩ ⟨2, ![B, K]⟩ [1] [0, 1] [] [0, 1] [] 1 ![1, 1, K])
    (x : (⟨3, ![B, S, K]⟩ : Shape).Idx → α) (idx : IVec ⟨2, ![B, 2]⟩ w) (b : Fin B) (k : Fin K) :
    Host.gather (stackGatherDims B S K wf) x idx (ix2 b k)
      = x (ix3 (⟨min (idx (ix2 b (0 : Fin 2))).toInt.toNat (B - 1), by omega⟩ : Fin B)
               (⟨min (idx (ix2 b (1 : Fin 2))).toInt.toNat (S - 1), by omega⟩ : Fin S) k) := by
  unfold Host.gather
  congr 1
  funext a
  refine Fin.ext ?_
  have hmem0 : (0 : Fin 3) ∈ (stackGatherDims B S K wf).startIndexMap := List.mem_cons_self ..
  have hmem1 : (1 : Fin 3) ∈ (stackGatherDims B S K wf).startIndexMap :=
    List.mem_cons_of_mem _ (List.mem_cons_self ..)
  match a with
  | ⟨0, _⟩ =>
    show (stackGatherDims B S K wf).start (ix2 b k) idx 0 + (stackGatherDims B S K wf).batchCoord (ix2 b k) 0
        + (stackGatherDims B S K wf).offCoord (ix2 b k) 0 = min (idx (ix2 b (0 : Fin 2))).toInt.toNat (B - 1)
    rw [GatherDims.batchCoord_eq_zero _ _ _ List.not_mem_nil,
      GatherDims.offCoord_eq_zero _ _ _ (fun h => ((GatherDims.mem_sKept _ _).mp h).1 hmem0)]
    simp only [Nat.add_zero]
    unfold GatherDims.start
    rw [dif_pos hmem0]
    have hsi : (stackGatherDims B S K wf).siIdx (ix2 b k)
        ⟨List.idxOf (0 : Fin 3) (stackGatherDims B S K wf).startIndexMap, List.idxOf_lt_length_iff.2 hmem0⟩
          = ix2 b (0 : Fin 2) := by
      funext c; refine Fin.ext ?_
      match c with
      | ⟨0, _⟩ => rfl
      | ⟨1, _⟩ => rfl
    rw [hsi]
    rfl
  | ⟨1, _⟩ =>
    show (stackGatherDims B S K wf).start (ix2 b k) idx 1 + (stackGatherDims B S K wf).batchCoord (ix2 b k) 1
        + (stackGatherDims B S K wf).offCoord (ix2 b k) 1 = min (idx (ix2 b (1 : Fin 2))).toInt.toNat (S - 1)
    rw [GatherDims.batchCoord_eq_zero _ _ _ List.not_mem_nil,
      GatherDims.offCoord_eq_zero _ _ _ (fun h => ((GatherDims.mem_sKept _ _).mp h).1 hmem1)]
    simp only [Nat.add_zero]
    unfold GatherDims.start
    rw [dif_pos hmem1]
    have hsi : (stackGatherDims B S K wf).siIdx (ix2 b k)
        ⟨List.idxOf (1 : Fin 3) (stackGatherDims B S K wf).startIndexMap, List.idxOf_lt_length_iff.2 hmem1⟩
          = ix2 b (1 : Fin 2) := by
      funext c; refine Fin.ext ?_
      match c with
      | ⟨0, _⟩ => rfl
      | ⟨1, _⟩ => rfl
    rw [hsi]
    rfl
  | ⟨2, _⟩ =>
    show (stackGatherDims B S K wf).start (ix2 b k) idx 2 + (stackGatherDims B S K wf).batchCoord (ix2 b k) 2
        + (stackGatherDims B S K wf).offCoord (ix2 b k) 2 = k.val
    have h2 : (2 : Fin 3) ∉ ([0, 1] : List (Fin 3)) := by decide
    have hnot : (2 : Fin 3) ∉ (stackGatherDims B S K wf).startIndexMap := h2
    rw [GatherDims.batchCoord_eq_zero _ _ _ List.not_mem_nil]
    unfold GatherDims.start
    rw [dif_neg hnot]
    simp only [Nat.add_zero, Nat.zero_add]
    have hk : (2 : Fin 3) ∈ (stackGatherDims B S K wf).sKept := by
      exact (GatherDims.mem_sKept _ _).2 ⟨h2, List.not_mem_nil⟩
    unfold GatherDims.offCoord
    rw [dif_pos hk]
    rfl

/-! ## The two-coordinate row set-scatter -/

/-- The dimension numbers of `x.at[arange(B), p].set(v)` over `x : [B, S, K]`, `v : [B, K]`: scatter indices `[B, 2]`
    (index vector on axis 1), both indexed axes inserted, the update's axis 1 the row window. -/
abbrev stackScatterDims (B S K : Nat)
    (wf : ScatterDims.WF ⟨3, ![B, S, K]⟩ ⟨2, ![B, 2]⟩ ⟨2, ![B, K]⟩ [1] [0, 1] [0, 1] 1) :
    ScatterDims ⟨3, ![B, S, K]⟩ ⟨2, ![B, 2]⟩ ⟨2, ![B, K]⟩ where
  updateWindowDims := [1]
  insertedWindowDims := [0, 1]
  scatterDimsToOperandDims := [0, 1]
  indexVectorDim := 1
  wf := wf

section StackScatterCoords
variable {B S K w : Nat}
  (wf : ScatterDims.WF ⟨3, ![B, S, K]⟩ ⟨2, ![B, 2]⟩ ⟨2, ![B, K]⟩ [1] [0, 1] [0, 1] 1)
  (idx : IVec ⟨2, ![B, 2]⟩ w) (b : Fin B) (k : Fin K)

/-- The operand's kept axes of the row set-scatter: the row axis alone is not inserted. -/
theorem stack_mem_sKept (a : Fin 3) : a ∈ (stackScatterDims B S K wf).sKept ↔ a ∉ ([0, 1] : List (Fin 3)) := by
  simp [ScatterDims.sKept, Shape.kept, List.mem_filter, List.mem_finRange]

/-- On the batch axis the window of update `(b, k)` starts at component 0 of index row `b`, read signed. -/
theorem stack_start0 : (stackScatterDims B S K wf).start (ix2 b k) idx 0 = (idx (ix2 b (0 : Fin 2))).toInt := by
  have hmem : (0 : Fin 3) ∈ (stackScatterDims B S K wf).scatterDimsToOperandDims := List.mem_cons_self ..
  unfold ScatterDims.start
  rw [dif_pos hmem]
  have hsi : (stackScatterDims B S K wf).siIdx (ix2 b k)
      ⟨List.idxOf (0 : Fin 3) (stackScatterDims B S K wf).scatterDimsToOperandDims, List.idxOf_lt_length_iff.2 hmem⟩
        = ix2 b (0 : Fin 2) := by
    funext c; refine Fin.ext ?_
    match c with
    | ⟨0, _⟩ => rfl
    | ⟨1, _⟩ => rfl
  rw [hsi]

/-- On the slot axis it starts at component 1 of index row `b`, read signed. -/
theorem stack_start1 : (stackScatterDims B S K wf).start (ix2 b k) idx 1 = (idx (ix2 b (1 : Fin 2))).toInt := by
  have hmem : (1 : Fin 3) ∈ (stackScatterDims B S K wf).scatterDimsToOperandDims :=
    List.mem_cons_of_mem _ (List.mem_cons_self ..)
  unfold ScatterDims.start
  rw [dif_pos hmem]
  have hsi : (stackScatterDims B S K wf).siIdx (ix2 b k)
      ⟨List.idxOf (1 : Fin 3) (stackScatterDims B S K wf).scatterDimsToOperandDims, List.idxOf_lt_length_iff.2 hmem⟩
        = ix2 b (1 : Fin 2) := by
    funext c; refine Fin.ext ?_
    match c with
    | ⟨0, _⟩ => rfl
    | ⟨1, _⟩ => rfl
  rw [hsi]

/-- On the row axis, which no index component names, it starts at 0. -/
theorem stack_start2 : (stackScatterDims B S K wf).start (ix2 b k) idx 2 = 0 := by
  have h2 : (2 : Fin 3) ∉ ([0, 1] : List (Fin 3)) := by decide
  have hnot : (2 : Fin 3) ∉ (stackScatterDims B S K wf).scatterDimsToOperandDims := h2
  unfold ScatterDims.start
  rw [dif_neg hnot]

/-- The batch axis is inserted: window coordinate 0. -/
theorem stack_window0 : (stackScatterDims B S K wf).window (ix2 b k) 0 = 0 := by
  have hnot : (0 : Fin 3) ∉ (stackScatterDims B S K wf).sKept :=
    fun h => (stack_mem_sKept wf 0).1 h (List.mem_cons_self ..)
  unfold ScatterDims.window
  rw [dif_neg hnot]

/-- The slot axis is inserted: window coordinate 0. -/
theorem stack_window1 : (stackScatterDims B S K wf).window (ix2 b k) 1 = 0 := by
  have hnot : (1 : Fin 3) ∉ (stackScatterDims B S K wf).sKept :=
    fun h => (stack_mem_sKept wf 1).1 h (List.mem_cons_of_mem _ (List.mem_cons_self ..))
  unfold ScatterDims.window
  rw [dif_neg hnot]

/-- The row axis carries the update's column. -/
theorem stack_window2 : (stackScatterDims B S K wf).window (ix2 b k) 2 = k.val := by
  have h2 : (2 : Fin 3) ∉ ([0, 1] : List (Fin 3)) := by decide
  have hk : (2 : Fin 3) ∈ (stackScatterDims B S K wf).sKept := (stack_mem_sKept wf 2).2 h2
  unfold ScatterDims.window
  rw [dif_pos hk]
  rfl

end StackScatterCoords

/-- WHERE AN UPDATE ENTRY LANDS: update `(b, k)` goes to operand `(b', s, k')` exactly when index row `b` reads,
    signed, `(b', s)` and `k = k'`. -/
theorem resultIdx_stack_iff {B S K w : Nat}
    (wf : ScatterDims.WF ⟨3, ![B, S, K]⟩ ⟨2, ![B, 2]⟩ ⟨2, ![B, K]⟩ [1] [0, 1] [0, 1] 1)
    (idx : IVec ⟨2, ![B, 2]⟩ w) (b : Fin B) (k : Fin K) (b' : Fin B) (s : Fin S) (k' : Fin K) :
    (stackScatterDims B S K wf).resultIdx? (ix2 b k) idx = some (ix3 b' s k')
      ↔ (idx (ix2 b (0 : Fin 2))).toInt = (b'.val : Int) ∧ (idx (ix2 b (1 : Fin 2))).toInt = (s.val : Int) ∧ k = k' := by
  have hs0 := stack_start0 wf idx b k
  have hs1 := stack_start1 wf idx b k
  have hs2 := stack_start2 wf idx b k
  have hw0 := stack_window0 wf b k
  have hw1 := stack_window1 wf b k
  have hw2 := stack_window2 wf b k
  unfold ScatterDims.resultIdx?
  constructor
  · intro h
    split at h
    · rename_i hall
      have hf := Option.some.inj h
      have e0 : ((stackScatterDims B S K wf).start (ix2 b k) idx 0 + ((stackScatterDims B S K wf).window (ix2 b k) 0 : Nat)).toNat = b'.val :=
        congrArg Fin.val (congrFun hf 0)
      have e1 : ((stackScatterDims B S K wf).start (ix2 b k) idx 1 + ((stackScatterDims B S K wf).window (ix2 b k) 1 : Nat)).toNat = s.val :=
        congrArg Fin.val (congrFun hf 1)
      have e2 : ((stackScatterDims B S K wf).start (ix2 b k) idx 2 + ((stackScatterDims B S K wf).window (ix2 b k) 2 : Nat)).toNat = k'.val :=
        congrArg Fin.val (congrFun hf 2)
      have a0 := (hall 0).1
      have a1 := (hall 1).1
      rw [hs0, hw0] at e0 a0
      rw [hs1, hw1] at e1 a1
      rw [hs2, hw2] at e2
      exact ⟨by omega, by omega, Fin.ext (by omega)⟩
    · exact absurd h (by simp)
  · rintro ⟨h0, h1, rfl⟩
    split
    · congr 1
      funext a
      refine Fin.ext ?_
      match a with
      | ⟨0, _⟩ =>
        show ((stackScatterDims B S K wf).start (ix2 b k) idx 0 + ((stackScatterDims B S K wf).window (ix2 b k) 0 : Nat)).toNat = b'.val
        rw [hs0, hw0, h0]; omega
      | ⟨1, _⟩ =>
        show ((stackScatterDims B S K wf).start (ix2 b k) idx 1 + ((stackScatterDims B S K wf).window (ix2 b k) 1 : Nat)).toNat = s.val
        rw [hs1, hw1, h1]; omega
      | ⟨2, _⟩ =>
        show ((stackScatterDims B S K wf).start (ix2 b k) idx 2 + ((stackScatterDims B S K wf).window (ix2 b k) 2 : Nat)).toNat = k.val
        rw [hs2, hw2]; omega
    · rename_i hn
      exfalso
      apply hn
      intro a
      match a with
      | ⟨0, _⟩ =>
        show 0 ≤ (stackScatterDims B S K wf).start (ix2 b k) idx 0 + ((stackScatterDims B S K wf).window (ix2 b k) 0 : Nat)
          ∧ (stackScatterDims B S K wf).start (ix2 b k) idx 0 + ((stackScatterDims B S K wf).window (ix2 b k) 0 : Nat) < ((B : Nat) : Int)
        rw [hs0, hw0, h0]; have := b'.isLt; omega
      | ⟨1, _⟩ =>
        show 0 ≤ (stackScatterDims B S K wf).start (ix2 b k) idx 1 + ((stackScatterDims B S K wf).window (ix2 b k) 1 : Nat)
          ∧ (stackScatterDims B S K wf).start (ix2 b k) idx 1 + ((stackScatterDims B S K wf).window (ix2 b k) 1 : Nat) < ((S : Nat) : Int)
        rw [hs1, hw1, h1]; have := s.isLt; omega
      | ⟨2, _⟩ =>
        show 0 ≤ (stackScatterDims B S K wf).start (ix2 b k) idx 2 + ((stackScatterDims B S K wf).window (ix2 b k) 2 : Nat)
          ∧ (stackScatterDims B S K wf).start (ix2 b k) idx 2 + ((stackScatterDims B S K wf).window (ix2 b k) 2 : Nat) < ((K : Nat) : Int)
        rw [hs2, hw2]; have := k.isLt; omega

/-- THE SET-SCATTER READ AT `(b, s, k)`, when component 0 of every index row is the row's own number: the update's
    `(b, k)` if the slot component of index row `b`, read signed, is `s`; the operand's entry otherwise (an index row
    whose slot is outside `[0, S)` writes nothing). -/
theorem scatter_stack_set_apply {α : Type} {B S K w : Nat}
    (wf : ScatterDims.WF ⟨3, ![B, S, K]⟩ ⟨2, ![B, 2]⟩ ⟨2, ![B, K]⟩ [1] [0, 1] [0, 1] 1)
    (x : (⟨3, ![B, S, K]⟩ : Shape).Idx → α) (idx : IVec ⟨2, ![B, 2]⟩ w) (upd : (⟨2, ![B, K]⟩ : Shape).Idx → α)
    (hrow : ∀ b : Fin B, (idx (ix2 b (0 : Fin 2))).toInt = (b.val : Int))
    (b : Fin B) (s : Fin S) (k : Fin K) :
    Host.scatter (stackScatterDims B S K wf) (fun _ v => v) x idx upd (ix3 b s k)
      = if (idx (ix2 b (1 : Fin 2))).toInt = (s.val : Int) then upd (ix2 b k) else x (ix3 b s k) := by
  by_cases hslot : (idx (ix2 b (1 : Fin 2))).toInt = (s.val : Int)
  · rw [if_pos hslot]
    refine scatter_set_hit _ x idx upd (ix3 b s k) (ix2 b k) ?_ ?_
    · exact (resultIdx_stack_iff wf idx b k b s k).2 ⟨hrow b, hslot, rfl⟩
    · intro j hj
      obtain ⟨c, e, rfl⟩ : ∃ (c : Fin B) (e : Fin K), j = ix2 c e := ⟨j 0, j 1, eq_ix2 j⟩
      have h := (resultIdx_stack_iff wf idx c e b s k).1 hj
      have hc : c = b := Fin.ext (by have h1 := hrow c; have h2 := h.1; omega)
      have he : e = k := h.2.2
      rw [hc, he]
  · rw [if_neg hslot]
    refine scatter_set_miss _ x idx upd (ix3 b s k) ?_
    intro j hj
    obtain ⟨c, e, rfl⟩ : ∃ (c : Fin B) (e : Fin K), j = ix2 c e := ⟨j 0, j 1, eq_ix2 j⟩
    have h := (resultIdx_stack_iff wf idx c e b s k).1 hj
    have hc : c = b := Fin.ext (by have h1 := hrow c; have h2 := h.1; omega)
    apply hslot
    rw [← hc]
    exact h.2.1

end Idealize.ShloMosaic.StackIndex
-- ==== Proof.RefValue.lean ====
/-
  The reference's four results, read index by index, are the specification's functions of the argument arrays, when
  every stack position lies in `[0, 64)`.

  The reference gathers the top rows with a two-coordinate gather whose index rows are `(b, p_b)` — `b` from an iota and
  `p_b` the position word, each first passed through the reference's negative-index wrap (`select (i < 0) (i + size) i`), which is
  the identity on the iota and, under the range, on the positions; the gather's clamp is then the identity too. The gate
  pre-activations are the same four summands as the specification's in another order of addition (addition on the extended
  reals is commutative and associative). The sigmoid is spelt `1 / (1 + exp (-x))`, which is the logistic function. The new
  stacks are a two-coordinate set-scatter at index rows `(b, p_b + 1)`: row `p_b + 1` of batch element `b` is overwritten,
  and nothing is when `p_b + 1 = 64`.
-/
import proofs.«407907_j63728724738173_1_alg».proof.Proof.Gen.ReferenceIdeal.Read
import proofs.«407907_j63728724738173_1_alg».proof.Proof.Spec
import proofs.«407907_j63728724738173_1_alg».proof.Proof.LibStackIndex

noncomputable section

namespace Cert.ReferenceIdeal.RefValue

open Idealize.ShloMosaic Idealize.ShloMosaic.ValueIdx Cert.ReferenceIdeal Cert.ReferenceIdeal.Gen Cert.ReferenceIdeal.Read Cert.StackCell

variable (x0 : (⟨S4096x512, .f32⟩ : BufTy).Contents (Elt Ideal)) (x1 x2 : (⟨S4096x64x512, .f32⟩ : BufTy).Contents (Elt Ideal))
  (x3 : (⟨S4096, .i32⟩ : BufTy).Contents (Elt Ideal)) (x4 x5 : (⟨S2048x512, .f32⟩ : BufTy).Contents (Elt Ideal))
  (x6 x7 : (⟨S2048, .f32⟩ : BufTy).Contents (Elt Ideal))

/-! ## Words: the negative-index wrap is the identity on a non-negative word -/

/-- A signed "less than zero" test on a word whose signed value is non-negative selects the second operand. -/
theorem select_slt_zero {α : Type} (w : BitVec 32) (h : 0 ≤ w.toInt) (a c : α) :
    Scalar.select (IntOp.cmpi .slt w 0#32) a c = c := by
  have hs : w.slt 0#32 = false := by
    unfold BitVec.slt
    exact decide_eq_false (by rw [BitVec.toInt_zero]; omega)
  show Scalar.select (BitVec.ofBool (w.slt 0#32)) a c = c
  rw [hs]
  exact select_zero a c

/-- The word of a batch number reads, signed, as the number. -/
theorem toInt_ofNat_batch (b : Fin 4096) : (BitVec.ofNat 32 b.val).toInt = (b.val : Int) := by
  have hc := BitVec.toInt_eq_toNat_cond (BitVec.ofNat 32 b.val)
  rw [BitVec.toNat_ofNat] at hc
  have hb := b.isLt
  split_ifs at hc <;> omega

/-- Adding the word one to a position in `[0, 64)` adds one to its signed value. -/
theorem toInt_add_one (w : BitVec 32) (h0 : 0 ≤ w.toInt) (h1 : w.toInt < 64) : (w + 1#32).toInt = w.toInt + 1 := by
  have hc := BitVec.toInt_eq_toNat_cond w
  have hd := BitVec.toInt_eq_toNat_cond (w + 1#32)
  rw [BitVec.toNat_add] at hd
  have h1' : (1#32 : BitVec 32).toNat = 1 := rfl
  rw [h1'] at hd
  have hlt : w.toNat < 2 ^ 32 := w.isLt
  split_ifs at hc hd <;> omega

/-! ## The index rows: a two-column concatenation read at either column -/

section Rows
variable {α : Type}

/-- Column 0 of the concatenation of two one-column arrays is the first array. -/
theorem cat_col0 (u v : S4096x1.Idx → α) (h : Shape.Concatenates [S4096x1, S4096x1] S4096x2 1) (b : Fin 4096) :
    concatenate S4096x2 1 [⟨S4096x1, u⟩, ⟨S4096x1, v⟩] h (ix2 b (0 : Fin 2)) = u (ix2 b (0 : Fin 1)) :=
  concatenate_pair_apply_left 1 u v h _ rfl _ (fun a => by
    match a with
    | ⟨0, _⟩ => rfl
    | ⟨1, _⟩ => rfl)

/-- Column 1 of the concatenation of two one-column arrays is the second array. -/
theorem cat_col1 (u v : S4096x1.Idx → α) (h : Shape.Concatenates [S4096x1, S4096x1] S4096x2 1) (b : Fin 4096) :
    concatenate S4096x2 1 [⟨S4096x1, u⟩, ⟨S4096x1, v⟩] h (ix2 b (1 : Fin 2)) = v (ix2 b (0 : Fin 1)) :=
  concatenate_pair_apply_right 1 u v h _ rfl rfl _
    (fun a ha => by
      match a with
      | ⟨0, _⟩ => rfl
      | ⟨1, _⟩ => exact absurd rfl ha)
    rfl

end Rows

/-- The column index `(b, 0)` of a one-column array names entry `b` of the array it was broadcast from. -/
theorem col_idx (b : Fin 4096) : (fun a : Fin 1 => match a with
    | ⟨0, _⟩ => (⟨((ix2 b (0 : Fin 1) : S4096x1.Idx) 0).val, ((ix2 b (0 : Fin 1) : S4096x1.Idx) 0).isLt⟩ : Fin 4096)) = (ix1 b : S4096.Idx) := by
  funext a
  match a with
  | ⟨0, _⟩ => rfl

/-! ## The four index-row arrays -/

/-- Column 0 of the index rows `val_main_v13`: the batch number's word (the wrap leaves a non-negative iota alone). -/
theorem v13_col0 (b : Fin 4096) : val_main_v13 (F := Ideal) x3 (ix2 b (0 : Fin 2)) = BitVec.ofNat 32 b.val := by
  unfold val_main_v13
  refine (cat_col0 _ _ _ b).trans ?_
  rw [val_main_v11_apply]
  have hi : idx_main_v11 (ix2 b (0 : Fin 1)) = ix1 b := by
    funext a
    match a with
    | ⟨0, _⟩ => rfl
  rw [hi, val_main_v5_apply, val_main_v2_apply, val_main_v1_apply, val_main_c_apply, val_main_v0_apply]
  exact select_slt_zero (BitVec.ofNat 32 b.val) (by rw [toInt_ofNat_batch]; omega) _ _

/-- Column 1 of the index rows `val_main_v13`: the position word itself (the wrap leaves a non-negative position alone). -/
theorem v13_col1 (hp : ∀ b : Fin 4096, 0 ≤ (x3 (ix1 b)).toInt ∧ (x3 (ix1 b)).toInt < 64) (b : Fin 4096) :
    val_main_v13 (F := Ideal) x3 (ix2 b (1 : Fin 2)) = x3 (ix1 b) := by
  unfold val_main_v13
  refine (cat_col1 _ _ _ b).trans ?_
  rw [val_main_v12_apply]
  have hi : idx_main_v12 (ix2 b (0 : Fin 1)) = ix1 b := by
    funext a
    match a with
    | ⟨0, _⟩ => rfl
  rw [hi, val_main_v10_apply, val_main_v7_apply, val_main_v6_apply, val_main_c_1_apply]
  exact select_slt_zero (x3 (ix1 b)) (hp b).1 _ _

/-- Column 0 of the index rows `val_main_v27`: the batch number's word (the wrap leaves a non-negative iota alone). -/
theorem v27_col0 (b : Fin 4096) : val_main_v27 (F := Ideal) x3 (ix2 b (0 : Fin 2)) = BitVec.ofNat 32 b.val := by
  unfold val_main_v27
  refine (cat_col0 _ _ _ b).trans ?_
  rw [val_main_v25_apply]
  have hi : idx_main_v25 (ix2 b (0 : Fin 1)) = ix1 b := by
    funext a
    match a with
    | ⟨0, _⟩ => rfl
  rw [hi, val_main_v19_apply, val_main_v16_apply, val_main_v15_apply, val_main_c_3_apply, val_main_v0_apply]
  exact select_slt_zero (BitVec.ofNat 32 b.val) (by rw [toInt_ofNat_batch]; omega) _ _

/-- Column 1 of the index rows `val_main_v27`: the position word itself (the wrap leaves a non-negative position alone). -/
theorem v27_col1 (hp : ∀ b : Fin 4096, 0 ≤ (x3 (ix1 b)).toInt ∧ (x3 (ix1 b)).toInt < 64) (b : Fin 4096) :
    val_main_v27 (F := Ideal) x3 (ix2 b (1 : Fin 2)) = x3 (ix1 b) := by
  unfold val_main_v27
  refine (cat_col1 _ _ _ b).trans ?_
  rw [val_main_v26_apply]
  have hi : idx_main_v26 (ix2 b (0 : Fin 1)) = ix1 b := by
    funext a
    match a with
    | ⟨0, _⟩ => rfl
  rw [hi, val_main_v24_apply, val_main_v21_apply, val_main_v20_apply, val_main_c_5_apply]
  exact select_slt_zero (x3 (ix1 b)) (hp b).1 _ _

/-- Column 0 of the index rows `val_main_v82`: the batch number's word (the wrap leaves a non-negative iota alone). -/
theorem v82_col0 (b : Fin 4096) : val_main_v82 (F := Ideal) x3 (ix2 b (0 : Fin 2)) = BitVec.ofNat 32 b.val := by
  unfold val_main_v82
  refine (cat_col0 _ _ _ b).trans ?_
  rw [val_main_v80_apply]
  have hi : idx_main_v80 (ix2 b (0 : Fin 1)) = ix1 b := by
    funext a
    match a with
    | ⟨0, _⟩ => rfl
  rw [hi, val_main_v74_apply, val_main_v71_apply, val_main_v70_apply, val_main_c_13_apply, val_main_v0_apply]
  exact select_slt_zero (BitVec.ofNat 32 b.val) (by rw [toInt_ofNat_batch]; omega) _ _

/-- Column 1 of the index rows `val_main_v82`: the position word plus one (non-negative, so the wrap leaves it alone). -/
theorem v82_col1 (hp : ∀ b : Fin 4096, 0 ≤ (x3 (ix1 b)).toInt ∧ (x3 (ix1 b)).toInt < 64) (b : Fin 4096) :
    val_main_v82 (F := Ideal) x3 (ix2 b (1 : Fin 2)) = x3 (ix1 b) + 1#32 := by
  unfold val_main_v82
  refine (cat_col1 _ _ _ b).trans ?_
  rw [val_main_v81_apply]
  have hi : idx_main_v81 (ix2 b (0 : Fin 1)) = ix1 b := by
    funext a
    match a with
    | ⟨0, _⟩ => rfl
  rw [hi, val_main_v79_apply, val_main_v76_apply, val_main_v75_apply, val_main_c_15_apply, val_main_v69_apply,
    val_main_v68_apply, val_main_c_12_apply]
  exact select_slt_zero (x3 (ix1 b) + 1#32)
    (by rw [toInt_add_one _ (hp b).1 (hp b).2]; have := (hp b).1; omega) _ _

/-- Column 0 of the index rows `val_main_v98`: the batch number's word (the wrap leaves a non-negative iota alone). -/
theorem v98_col0 (b : Fin 4096) : val_main_v98 (F := Ideal) x3 (ix2 b (0 : Fin 2)) = BitVec.ofNat 32 b.val := by
  unfold val_main_v98
  refine (cat_col0 _ _ _ b).trans ?_
  rw [val_main_v96_apply]
  have hi : idx_main_v96 (ix2 b (0 : Fin 1)) = ix1 b := by
    funext a
    match a with
    | ⟨0, _⟩ => rfl
  rw [hi, val_main_v90_apply, val_main_v87_apply, val_main_v86_apply, val_main_c_18_apply, val_main_v0_apply]
  exact select_slt_zero (BitVec.ofNat 32 b.val) (by rw [toInt_ofNat_batch]; omega) _ _

/-- Column 1 of the index rows `val_main_v98`: the position word plus one (non-negative, so the wrap leaves it alone). -/
theorem v98_col1 (hp : ∀ b : Fin 4096, 0 ≤ (x3 (ix1 b)).toInt ∧ (x3 (ix1 b)).toInt < 64) (b : Fin 4096) :
    val_main_v98 (F := Ideal) x3 (ix2 b (1 : Fin 2)) = x3 (ix1 b) + 1#32 := by
  unfold val_main_v98
  refine (cat_col1 _ _ _ b).trans ?_
  rw [val_main_v97_apply]
  have hi : idx_main_v97 (ix2 b (0 : Fin 1)) = ix1 b := by
    funext a
    match a with
    | ⟨0, _⟩ => rfl
  rw [hi, val_main_v95_apply, val_main_v92_apply, val_main_v91_apply, val_main_c_20_apply, val_main_v85_apply,
    val_main_v84_apply, val_main_c_17_apply]
  exact select_slt_zero (x3 (ix1 b) + 1#32)
    (by rw [toInt_add_one _ (hp b).1 (hp b).2]; have := (hp b).1; omega) _ _

/-! ## The gathers of the top rows -/

/-- Two rank-3 indices with equal first two coordinates and the same third are equal. -/
theorem ix3_congr {n0 n1 n2 : Nat} {a a' : Fin n0} {s s' : Fin n1} (k : Fin n2) (ha : a = a') (hs : s = s') :
    ix3 a s k = ix3 a' s' k := by
  subst ha; subst hs; rfl

/-- The reference's gather record is the two-coordinate row gather over a `[4096, 64, 512]` stack. -/
theorem gather_eq : gather_S4096x64x512_S4096x2_S4096x512_1_01_n_n_01_1_11512
    = StackIndex.stackGatherDims 4096 64 512 gather_S4096x64x512_S4096x2_S4096x512_1_01_n_n_01_1_11512.wf := rfl

/-- A row gather of a stack at index rows whose column 0 is the batch number and whose column 1 is the position word
    reads the stack at each batch element's top slot. -/
theorem gather_top (A : (⟨S4096x64x512, .f32⟩ : BufTy).Contents (Elt Ideal)) (idx : (⟨S4096x2, .i32⟩ : BufTy).Contents (Elt Ideal))
    (hp : ∀ b : Fin 4096, 0 ≤ (x3 (ix1 b)).toInt ∧ (x3 (ix1 b)).toInt < 64)
    (h0 : ∀ b : Fin 4096, idx (ix2 b (0 : Fin 2)) = BitVec.ofNat 32 b.val)
    (h1 : ∀ b : Fin 4096, idx (ix2 b (1 : Fin 2)) = x3 (ix1 b)) (b : Fin 4096) (k : Fin 512) :
    Host.gather gather_S4096x64x512_S4096x2_S4096x512_1_01_n_n_01_1_11512 A idx (ix2 b k) = topRow A x3 b k := by
  rw [gather_eq]
  refine (StackIndex.gather_stack_apply (by decide) (by decide) _ A idx b k).trans ?_
  unfold topRow
  refine congrArg A (ix3_congr k (Fin.ext ?_) (Fin.ext ?_))
  · show min (idx (ix2 b (0 : Fin 2))).toInt.toNat (4096 - 1) = b.val
    rw [h0 b, toInt_ofNat_batch]
    have := b.isLt
    omega
  · show min (idx (ix2 b (1 : Fin 2))).toInt.toNat (64 - 1) = (top x3 b).val
    rw [h1 b]
    have ht := top_val x3 b (hp b).1 (hp b).2
    have := (hp b).1
    omega

/-- The gathered top hidden rows. -/
theorem ref_topH (hp : ∀ b : Fin 4096, 0 ≤ (x3 (ix1 b)).toInt ∧ (x3 (ix1 b)).toInt < 64) (b : Fin 4096) (k : Fin 512) :
    val_main_v14 (F := Ideal) x1 x3 (ix2 b k) = topRow x1 x3 b k := by
  unfold val_main_v14
  exact gather_top x3 x1 _ hp (v13_col0 x3) (v13_col1 x3 hp) b k

/-- The gathered top cell rows. -/
theorem ref_topC (hp : ∀ b : Fin 4096, 0 ≤ (x3 (ix1 b)).toInt ∧ (x3 (ix1 b)).toInt < 64) (b : Fin 4096) (k : Fin 512) :
    val_main_v28 (F := Ideal) x2 x3 (ix2 b k) = topRow x2 x3 b k := by
  unfold val_main_v28
  exact gather_top x3 x2 _ hp (v27_col0 x3) (v27_col1 x3 hp) b k

/-! ## The gate pre-activations -/

/-- The input rows against the transposed input weights: the sum over the shared axis. -/
theorem dot_X (b : Fin 4096) (j : Fin 2048) :
    val_main_v30 (F := Ideal) x0 x4 (ix2 b j) = ∑ k : Fin 512, x0 (ix2 b k) * x4 (ix2 j k) := by
  rw [val_main_v30_apply]
  refine Finset.sum_congr rfl fun k _ => ?_
  rw [val_main_v29_apply]
  have el : lidx_main_v30 (ix2 b j) k = ix2 b k := by
    funext a
    match a with
    | ⟨0, _⟩ => rfl
    | ⟨1, _⟩ => rfl
  have er : idx_main_v29 (ridx_main_v30 (ix2 b j) k) = ix2 j k := by
    funext a
    match a with
    | ⟨0, _⟩ => rfl
    | ⟨1, _⟩ => rfl
  rw [el, er]

/-- The gathered hidden rows against the transposed hidden weights. -/
theorem dot_H (hp : ∀ b : Fin 4096, 0 ≤ (x3 (ix1 b)).toInt ∧ (x3 (ix1 b)).toInt < 64) (b : Fin 4096) (j : Fin 2048) :
    val_main_v35 (F := Ideal) x1 x3 x5 (ix2 b j) = ∑ k : Fin 512, topRow x1 x3 b k * x5 (ix2 j k) := by
  rw [val_main_v35_apply]
  refine Finset.sum_congr rfl fun k _ => ?_
  rw [val_main_v34_apply]
  have el : lidx_main_v35 (ix2 b j) k = ix2 b k := by
    funext a
    match a with
    | ⟨0, _⟩ => rfl
    | ⟨1, _⟩ => rfl
  have er : idx_main_v34 (ridx_main_v35 (ix2 b j) k) = ix2 j k := by
    funext a
    match a with
    | ⟨0, _⟩ => rfl
    | ⟨1, _⟩ => rfl
  rw [el, er, ref_topH x1 x3 hp b k]

/-- The input bias, broadcast over the batch. -/
theorem bias_I (b : Fin 4096) (j : Fin 2048) : val_main_v32 (F := Ideal) x6 (ix2 b j) = x6 (ix1 j) := by
  rw [val_main_v32_apply, val_main_v31_apply]
  refine congrArg x6 ?_
  funext a
  match a with
  | ⟨0, _⟩ => rfl

/-- The hidden bias, broadcast over the batch. -/
theorem bias_H (b : Fin 4096) (j : Fin 2048) : val_main_v38 (F := Ideal) x7 (ix2 b j) = x7 (ix1 j) := by
  rw [val_main_v38_apply, val_main_v37_apply]
  refine congrArg x7 ?_
  funext a
  match a with
  | ⟨0, _⟩ => rfl

/-- The gate pre-activations. -/
theorem ref_gate (hp : ∀ b : Fin 4096, 0 ≤ (x3 (ix1 b)).toInt ∧ (x3 (ix1 b)).toInt < 64) (b : Fin 4096) (j : Fin 2048) :
    val_main_v39 (F := Ideal) x0 x1 x3 x4 x5 x6 x7 (ix2 b j) = gate x0 x1 x3 x4 x5 x6 x7 b j := by
  rw [val_main_v39_apply, val_main_v36_apply, val_main_v33_apply, dot_X, dot_H x1 x3 x5 hp, bias_I, bias_H]
  simp only [Ideal.addf_def]
  unfold gate
  exact congrArg (· + x7 (ix1 j)) (add_right_comm _ _ _)

/-! ## The gates, the new cell row and the new hidden row -/

/-- `1 / (1 + exp (-x))`, the one given by its float word, is the logistic function. -/
theorem sigmoid_eq (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  simp only [Ideal.hostDivf_def, Ideal.addf_def, Ideal.hostUnary_exp_def, Ideal.hostNegf_def, Ideal.negf_def, Ideal.ofBits_def]
  rw [ofBits_one]
  rfl

/-- Block 0 of the gate columns (columns `512·0 + k`). -/
theorem slice_0 (hp : ∀ b : Fin 4096, 0 ≤ (x3 (ix1 b)).toInt ∧ (x3 (ix1 b)).toInt < 64) (b : Fin 4096) (k : Fin 512) :
    val_main_v40 (F := Ideal) x0 x1 x3 x4 x5 x6 x7 (ix2 b k) = gate x0 x1 x3 x4 x5 x6 x7 b (gcol 0 (by decide) k) := by
  rw [val_main_v40_apply]
  have hi : idx_main_v40 (ix2 b k) = ix2 b (gcol 0 (by decide) k) := by
    funext a
    match a with
    | ⟨0, _⟩ => rfl
    | ⟨1, _⟩ => exact Fin.ext (by show k.val = k.val + 512 * 0; omega)
  rw [hi]
  exact ref_gate x0 x1 x3 x4 x5 x6 x7 hp b _

/-- Block 1 of the gate columns (columns `512·1 + k`). -/
theorem slice_1 (hp : ∀ b : Fin 4096, 0 ≤ (x3 (ix1 b)).toInt ∧ (x3 (ix1 b)).toInt < 64) (b : Fin 4096) (k : Fin 512) :
    val_main_v41 (F := Ideal) x0 x1 x3 x4 x5 x6 x7 (ix2 b k) = gate x0 x1 x3 x4 x5 x6 x7 b (gcol 1 (by decide) k) := by
  rw [val_main_v41_apply]
  have hi : idx_main_v41 (ix2 b k) = ix2 b (gcol 1 (by decide) k) := by
    funext a
    match a with
    | ⟨0, _⟩ => rfl
    | ⟨1, _⟩ => exact Fin.ext (by show 512 + k.val = k.val + 512 * 1; omega)
  rw [hi]
  exact ref_gate x0 x1 x3 x4 x5 x6 x7 hp b _

/-- Block 2 of the gate columns (columns `512·2 + k`). -/
theorem slice_2 (hp : ∀ b : Fin 4096, 0 ≤ (x3 (ix1 b)).toInt ∧ (x3 (ix1 b)).toInt < 64) (b : Fin 4096) (k : Fin 512) :
    val_main_v42 (F := Ideal) x0 x1 x3 x4 x5 x6 x7 (ix2 b k) = gate x0 x1 x3 x4 x5 x6 x7 b (gcol 2 (by decide) k) := by
  rw [val_main_v42_apply]
  have hi : idx_main_v42 (ix2 b k) = ix2 b (gcol 2 (by decide) k) := by
    funext a
    match a with
    | ⟨0, _⟩ => rfl
    | ⟨1, _⟩ => exact Fin.ext (by show 1024 + k.val = k.val + 512 * 2; omega)
  rw [hi]
  exact ref_gate x0 x1 x3 x4 x5 x6 x7 hp b _

/-- Block 3 of the gate columns (columns `512·3 + k`). -/
theorem slice_3 (hp : ∀ b : Fin 4096, 0 ≤ (x3 (ix1 b)).toInt ∧ (x3 (ix1 b)).toInt < 64) (b : Fin 4096) (k : Fin 512) :
    val_main_v43 (F := Ideal) x0 x1 x3 x4 x5 x6 x7 (ix2 b k) = gate x0 x1 x3 x4 x5 x6 x7 b (gcol 3 (by decide) k) := by
  rw [val_main_v43_apply]
  have hi : idx_main_v43 (ix2 b k) = ix2 b (gcol 3 (by decide) k) := by
    funext a
    match a with
    | ⟨0, _⟩ => rfl
    | ⟨1, _⟩ => exact Fin.ext (by show 1536 + k.val = k.val + 512 * 3; omega)
  rw [hi]
  exact ref_gate x0 x1 x3 x4 x5 x6 x7 hp b _

/-- The input gate. -/
theorem sig_I (hp : ∀ b : Fin 4096, 0 ≤ (x3 (ix1 b)).toInt ∧ (x3 (ix1 b)).toInt < 64) (b : Fin 4096) (k : Fin 512) :
    val_main_v49 (F := Ideal) x0 x1 x3 x4 x5 x6 x7 (ix2 b k) = Ideal.logistic (gate x0 x1 x3 x4 x5 x6 x7 b (gcol 0 (by decide) k)) := by
  rw [val_main_v49_apply, val_main_v48_apply, val_main_cst_7_apply, val_main_v47_apply, val_main_v46_apply,
    val_main_cst_apply, val_main_v45_apply, val_main_v44_apply, slice_0 x0 x1 x3 x4 x5 x6 x7 hp]
  exact sigmoid_eq _

/-- The forget gate. -/
theorem sig_F (hp : ∀ b : Fin 4096, 0 ≤ (x3 (ix1 b)).toInt ∧ (x3 (ix1 b)).toInt < 64) (b : Fin 4096) (k : Fin 512) :
    val_main_v55 (F := Ideal) x0 x1 x3 x4 x5 x6 x7 (ix2 b k) = Ideal.logistic (gate x0 x1 x3 x4 x5 x6 x7 b (gcol 1 (by decide) k)) := by
  rw [val_main_v55_apply, val_main_v54_apply, val_main_cst_9_apply, val_main_v53_apply, val_main_v52_apply,
    val_main_cst_8_apply, val_main_v51_apply, val_main_v50_apply, slice_1 x0 x1 x3 x4 x5 x6 x7 hp]
  exact sigmoid_eq _

/-- The output gate. -/
theorem sig_O (hp : ∀ b : Fin 4096, 0 ≤ (x3 (ix1 b)).toInt ∧ (x3 (ix1 b)).toInt < 64) (b : Fin 4096) (k : Fin 512) :
    val_main_v62 (F := Ideal) x0 x1 x3 x4 x5 x6 x7 (ix2 b k) = Ideal.logistic (gate x0 x1 x3 x4 x5 x6 x7 b (gcol 3 (by decide) k)) := by
  rw [val_main_v62_apply, val_main_v61_apply, val_main_cst_11_apply, val_main_v60_apply, val_main_v59_apply,
    val_main_cst_10_apply, val_main_v58_apply, val_main_v57_apply, slice_3 x0 x1 x3 x4 x5 x6 x7 hp]
  exact sigmoid_eq _

/-- The new cell row at an index. -/
theorem ref_cNew (hp : ∀ b : Fin 4096, 0 ≤ (x3 (ix1 b)).toInt ∧ (x3 (ix1 b)).toInt < 64) (b : Fin 4096) (k : Fin 512) :
    val_main_v65 (F := Ideal) x0 x1 x2 x3 x4 x5 x6 x7 (ix2 b k) = cNew x0 x1 x2 x3 x4 x5 x6 x7 b k := by
  rw [val_main_v65_apply, val_main_v63_apply, val_main_v64_apply, sig_F x0 x1 x3 x4 x5 x6 x7 hp, ref_topC x2 x3 hp, sig_I x0 x1 x3 x4 x5 x6 x7 hp,
    val_main_v56_apply, slice_2 x0 x1 x3 x4 x5 x6 x7 hp]
  rfl

/-- The new hidden row at an index. -/
theorem ref_hNew (hp : ∀ b : Fin 4096, 0 ≤ (x3 (ix1 b)).toInt ∧ (x3 (ix1 b)).toInt < 64) (b : Fin 4096) (k : Fin 512) :
    val_main_v67 (F := Ideal) x0 x1 x2 x3 x4 x5 x6 x7 (ix2 b k) = hNew x0 x1 x2 x3 x4 x5 x6 x7 b k := by
  rw [val_main_v67_apply, sig_O x0 x1 x3 x4 x5 x6 x7 hp, val_main_v66_apply, ref_cNew x0 x1 x2 x3 x4 x5 x6 x7 hp]
  rfl

/-- The new cell rows. -/
theorem ref_outC (hp : ∀ b : Fin 4096, 0 ≤ (x3 (ix1 b)).toInt ∧ (x3 (ix1 b)).toInt < 64) :
    val_main_v65 (F := Ideal) x0 x1 x2 x3 x4 x5 x6 x7 = outC x0 x1 x2 x3 x4 x5 x6 x7 := by
  funext i
  obtain ⟨b, k, rfl⟩ : ∃ (b : Fin 4096) (k : Fin 512), i = ix2 b k := ⟨i 0, i 1, eq_ix2 i⟩
  exact ref_cNew x0 x1 x2 x3 x4 x5 x6 x7 hp b k

/-- The new hidden rows. -/
theorem ref_outH (hp : ∀ b : Fin 4096, 0 ≤ (x3 (ix1 b)).toInt ∧ (x3 (ix1 b)).toInt < 64) :
    val_main_v67 (F := Ideal) x0 x1 x2 x3 x4 x5 x6 x7 = outH x0 x1 x2 x3 x4 x5 x6 x7 := by
  funext i
  obtain ⟨b, k, rfl⟩ : ∃ (b : Fin 4096) (k : Fin 512), i = ix2 b k := ⟨i 0, i 1, eq_ix2 i⟩
  exact ref_hNew x0 x1 x2 x3 x4 x5 x6 x7 hp b k

/-! ## The set-scatters of the new rows -/

/-- The reference's scatter record is the two-coordinate row set-scatter over a `[4096, 64, 512]` stack. -/
theorem scatter_eq : scatter_S4096x64x512_S4096x2_S4096x512_1_01_01_1
    = StackIndex.stackScatterDims 4096 64 512 scatter_S4096x64x512_S4096x2_S4096x512_1_01_01_1.wf := rfl

/-- A row set-scatter into a stack at index rows whose column 0 is the batch number and whose column 1 is the position
    word plus one replaces, for each batch element, the row above its top slot (none when that would be row 64). -/
theorem scatter_push (A : (⟨S4096x64x512, .f32⟩ : BufTy).Contents (Elt Ideal)) (idx : (⟨S4096x2, .i32⟩ : BufTy).Contents (Elt Ideal))
    (upd : (⟨S4096x512, .f32⟩ : BufTy).Contents (Elt Ideal)) (f : Fin 4096 → Fin 512 → EReal)
    (hp : ∀ b : Fin 4096, 0 ≤ (x3 (ix1 b)).toInt ∧ (x3 (ix1 b)).toInt < 64)
    (h0 : ∀ b : Fin 4096, idx (ix2 b (0 : Fin 2)) = BitVec.ofNat 32 b.val)
    (h1 : ∀ b : Fin 4096, idx (ix2 b (1 : Fin 2)) = x3 (ix1 b) + 1#32)
    (hu : ∀ (b : Fin 4096) (k : Fin 512), upd (ix2 b k) = f b k) (b : Fin 4096) (s : Fin 64) (k : Fin 512) :
    Host.scatter scatter_S4096x64x512_S4096x2_S4096x512_1_01_01_1 (fun _ v => v) A idx upd (ix3 b s k) = push A x3 f b s k := by
  rw [scatter_eq]
  refine (StackIndex.scatter_stack_set_apply _ A idx upd (fun c => by rw [h0 c]; exact toInt_ofNat_batch c) b s k).trans ?_
  unfold push
  rw [h1 b, toInt_add_one _ (hp b).1 (hp b).2, hu b k]
  have ht := top_val x3 b (hp b).1 (hp b).2
  refine if_congr ?_ rfl rfl
  constructor <;> intro h <;> omega

/-- The new hidden stack. -/
theorem ref_outHs (hp : ∀ b : Fin 4096, 0 ≤ (x3 (ix1 b)).toInt ∧ (x3 (ix1 b)).toInt < 64) :
    val_main_v83 (F := Ideal) x0 x1 x2 x3 x4 x5 x6 x7 = outHs x0 x1 x2 x3 x4 x5 x6 x7 := by
  funext i
  obtain ⟨b, s, k, rfl⟩ : ∃ (b : Fin 4096) (s : Fin 64) (k : Fin 512), i = ix3 b s k := ⟨i 0, i 1, i 2, eq_ix3 i⟩
  unfold val_main_v83
  exact scatter_push x3 x1 _ _ (hNew x0 x1 x2 x3 x4 x5 x6 x7) hp (v82_col0 x3) (v82_col1 x3 hp) (ref_hNew x0 x1 x2 x3 x4 x5 x6 x7 hp) b s k

/-- The new cell stack. -/
theorem ref_outCs (hp : ∀ b : Fin 4096, 0 ≤ (x3 (ix1 b)).toInt ∧ (x3 (ix1 b)).toInt < 64) :
    val_main_v99 (F := Ideal) x0 x1 x2 x3 x4 x5 x6 x7 = outCs x0 x1 x2 x3 x4 x5 x6 x7 := by
  funext i
  obtain ⟨b, s, k, rfl⟩ : ∃ (b : Fin 4096) (s : Fin 64) (k : Fin 512), i = ix3 b s k := ⟨i 0, i 1, i 2, eq_ix3 i⟩
  unfold val_main_v99
  exact scatter_push x3 x2 _ _ (cNew x0 x1 x2 x3 x4 x5 x6 x7) hp (v98_col0 x3) (v98_col1 x3 hp) (ref_cNew x0 x1 x2 x3 x4 x5 x6 x7 hp) b s k

end Cert.ReferenceIdeal.RefValue

end
-- ==== Proof.PosRange.lean ====
/-
  What the precondition says about the stack positions: every entry of `pos`, read as a signed 32-bit integer, lies
  in `[0, 64)` — the range of the stack axis it indexes. (The precondition is a conjunction of "all finite" tests of the
  float inputs and, last, `all((pos >= 0) & (pos < 64))`; only that last conjunct is opened here.)
-/
import proofs.«407907_j63728724738173_1_alg».proof.Pre_finite_inputs
import Idealize.ShloMosaic.Lib.ReduceAll
import Idealize.ShloMosaic.Lib.StableHlo.Predicate
import Idealize.ShloMosaic.Lib.ValueIdx

namespace Cert.PosRange

open Idealize.ShloMosaic Idealize.ShloMosaic.ValueIdx Cert.Pre_finite_inputs

/-- Under the precondition every stack position is a slot of the stack: `0 ≤ pos[b] < 64`, read signed. -/
theorem pos_range {F : FTy → Type} [FloatOps F] [Cert.Pre_finite_inputs.Facts]
    (a0 : FVec F S4096x512 .f32) (a1 a2 : FVec F S4096x64x512 .f32) (pos : IVec S4096 32)
    (a4 a5 : FVec F S2048x512 .f32) (a6 a7 : FVec F S2048 .f32)
    (h : Cert.Pre_finite_inputs.fn (F := F) a0 a1 a2 pos a4 a5 a6 a7 = fun _ => 1#1) (b : Fin 4096) :
    0 ≤ (pos (ix1 b)).toInt ∧ (pos (ix1 b)).toInt < 64 := by
  -- the precondition at the scalar's one index
  have h0 := congrFun h ValueIdx.ix0
  -- its last conjunct: the all-reduction of `(pos ≥ 0) & (pos < 64)` is 1
  have h1 : Host.reduce IntOp.andi
      (andi (cmpi .sge pos (broadcastInDim S4096 ![] Facts.bcast_S_S4096 (constantI S_ 32 0#32)))
        (cmpi .slt pos (broadcastInDim S4096 ![] Facts.bcast_S_S4096 (constantI S_ 32 64#32))))
      (constantI S_ 1 1#1) Facts.reducesTo_S4096_S_d0 Facts.h_S_ ix0 = 1#1 :=
    (IntOp.andi_eq_one.1 h0).2
  -- the scalar shape has exactly one index, so the reduction runs over every entry;
  -- hence the entry at `b` is 1, and both of its comparisons are
  haveI : Subsingleton S_.Idx := ⟨fun a b => funext fun d => d.elim0⟩
  have h2 := Host.reduce_andi_all _ _ _ _ _ h1 (ix1 b)
  obtain ⟨hge, hlt⟩ := IntOp.andi_eq_one.1 h2
  -- the broadcast scalars read as the constants 0 and 64 at every index
  have hge' : (0#32 : BitVec 32).toInt ≤ (pos (ix1 b)).toInt := IntOp.cmpi_sge.1 hge
  have hlt' : (pos (ix1 b)).toInt < (64#32 : BitVec 32).toInt := IntOp.cmpi_slt.1 hlt
  have e0 : (0#32 : BitVec 32).toInt = 0 := by decide
  have e64 : (64#32 : BitVec 32).toInt = 64 := by decide
  rw [e0] at hge'
  rw [e64] at hlt'
  exact ⟨hge', hlt'⟩

end Cert.PosRange
-- ==== Proof.lean ====
/-
  The certificate's claim: the kernel and its idealization run and leave their arguments unchanged, the reference
  does the same, the idealization rewrote nothing, and — under the precondition, which bounds every stack position to
  `[0, 64)` — the idealized kernel and the idealized reference end with equal results on the extended reals.

  The mathematics. Both programs perform one LSTM-cell step at the top of a per-batch-element stack (Proof/Spec.lean).
  The kernel selects the top hidden and cell rows by multiplying the whole 64-slot stack by a one-hot mask of the
  position and summing over the slots; zero times anything is zero on the extended reals, so the sum is the selected row
  (Proof/KernelRead.lean). It forms the gate pre-activations from two matrix products (a narrowing of a float format is
  the identity on the extended reals) and the two biases, applies the logistic function and the hyperbolic tangent, and
  writes the new rows into the slot above the top by blending the stack with a second one-hot mask
  (Proof/KernelPay.lean, Proof/KernelTile.lean); each grid point does this for 16 batch rows and the 256 blocks tile
  the arrays (Proof/KernelBlocks.lean, Proof/KernelFinal.lean). The reference gathers the same rows by a two-coordinate
  gather, adds the same four summands in another order (addition on the extended reals is commutative and associative),
  spells the logistic function as `1 / (1 + exp (-x))`, and writes the new rows by a two-coordinate set-scatter, which
  drops the write when the slot above the top is outside the stack — where the kernel's second mask is zero everywhere
  (Proof/LibStackIndex.lean, Proof/RefValue.lean). The range of the positions comes from the precondition
  (Proof/PosRange.lean); no finiteness of the float inputs is used.
-/
import proofs.«407907_j63728724738173_1_alg».proof.Defs
import proofs.«407907_j63728724738173_1_alg».proof.Proof.Gen.Kernel
import proofs.«407907_j63728724738173_1_alg».proof.Proof.Gen.Kernel.Skeleton
import proofs.«407907_j63728724738173_1_alg».proof.Proof.Gen.Kernel.Launch
import proofs.«407907_j63728724738173_1_alg».proof.Proof.Gen.Kernel.Points
import proofs.«407907_j63728724738173_1_alg».proof.Proof.Gen.Kernel.Frame
import proofs.«407907_j63728724738173_1_alg».proof.Proof.Gen.KernelIdeal
import proofs.«407907_j63728724738173_1_alg».proof.Proof.Gen.KernelIdeal.Skeleton
import proofs.«407907_j63728724738173_1_alg».proof.Proof.Gen.KernelIdeal.Launch
import proofs.«407907_j63728724738173_1_alg».proof.Proof.Gen.KernelIdeal.Points
import proofs.«407907_j63728724738173_1_alg».proof.Proof.Gen.KernelIdeal.Frame
import proofs.«407907_j63728724738173_1_alg».proof.Proof.Gen.ReferenceIdeal
import proofs.«407907_j63728724738173_1_alg».proof.Proof.Gen.Pre_finite_inputs
import proofs.«407907_j63728724738173_1_alg».proof.Proof.Gen.ReferenceIdeal.Run
import proofs.«407907_j63728724738173_1_alg».proof.Proof.Gen.ReferenceIdeal.Read
import proofs.«407907_j63728724738173_1_alg».proof.Proof.KernelFinal
import proofs.«407907_j63728724738173_1_alg».proof.Proof.RefValue
import proofs.«407907_j63728724738173_1_alg».proof.Proof.PosRange
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel, as printed, runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Under the precondition every stack position of the kernel's positions argument is a slot of the stack. -/
theorem posOk (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.PosOk m c :=
  fun b => Cert.PosRange.pos_range _ _ _ _ _ _ _ _ (hpre c) b

/-- Both idealized programs end with the specification's four arrays of the (agreeing) arguments. -/
theorem algebraic : Cert.algebraic_KernelIdeal_ReferenceIdeal := by
  intro m ρ m' ρ' hpre hagree
  have hp := posOk m hpre
  refine ⟨_, _, _, _, Cert.KernelIdeal.Final.run m ρ hp, ?_⟩
  refine (θ_run Cert.ReferenceIdeal.defs _ _).mono (fun _ h c => ?_) (Cert.ReferenceIdeal.Value.run (F := Ideal) m' ρ')
  obtain ⟨h0, h1, h2, h3, h4, h5, h6, h7⟩ := hagree c
  refine ⟨(h c).1.trans ?_, (h c).2.1.trans ?_, (h c).2.2.1.trans ?_, (h c).2.2.2.1.trans ?_, (h c).2.2.2.2⟩
  · rw [Cert.ReferenceIdeal.Read.val_main_v67_eq, h0, h1, h2, h3, h4, h5, h6, h7]
    exact Cert.ReferenceIdeal.RefValue.ref_outH _ _ _ _ _ _ _ _ (hp c)
  · rw [Cert.ReferenceIdeal.Read.val_main_v65_eq, h0, h1, h2, h3, h4, h5, h6, h7]
    exact Cert.ReferenceIdeal.RefValue.ref_outC _ _ _ _ _ _ _ _ (hp c)
  · rw [Cert.ReferenceIdeal.Read.val_main_v83_eq, h0, h1, h2, h3, h4, h5, h6, h7]
    exact Cert.ReferenceIdeal.RefValue.ref_outHs _ _ _ _ _ _ _ _ (hp c)
  · rw [Cert.ReferenceIdeal.Read.val_main_v99_eq, h0, h1, h2, h3, h4, h5, h6, h7]
    exact Cert.ReferenceIdeal.RefValue.ref_outCs _ _ _ _ _ _ _ _ (hp c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
